-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x128 : Shape := ⟨2, ![4096, 128]⟩
abbrev S20000x128 : Shape := ⟨2, ![20000, 128]⟩
abbrev S128x128 : Shape := ⟨2, ![128, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn_part4 {F : FTy → Type} [FloatOps F] (main_arg1 : IVec S4096 32) (main_v65 : IVec S_ 1) (main_v67 : IVec S4096 1) : IVec S_ 1 :=
  let main_c_26 : IVec S_ 32 := constantI S_ 32 20000#32
  let main_v68 : IVec S4096 32 := broadcastInDim S4096 ![] bcast_S_S4096 main_c_26
  let main_v69 : IVec S4096 1 := cmpi .slt main_arg1 main_v68
  let main_v70 : IVec S4096 1 := andi main_v67 main_v69
  let main_c_27 : IVec S_ 1 := constantI S_ 1 1#1
  let main_v71 : IVec S_ 1 := (fun x v => Host.reduce IntOp.andi x v reducesTo_S4096_S_d0 h_S_) main_v70 main_c_27
  let main_v72 : IVec S_ 1 := andi main_v65 main_v71
  main_v72

def fn_part3 {F : FTy → Type} [FloatOps F] (main_arg0 : IVec S4096 32) (main_arg1 : IVec S4096 32) (main_arg13 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S4096 32 := broadcastInDim S4096 ![] bcast_S_S4096 main_c_22
  let main_v60 : IVec S4096 1 := cmpi .sge main_arg0 main_v59
  let main_c_23 : IVec S_ 32 := constantI S_ 32 20000#32
  let main_v61 : IVec S4096 32 := broadcastInDim S4096 ![] bcast_S_S4096 main_c_23
  let main_v62 : IVec S4096 1 := cmpi .slt main_arg0 main_v61
  let main_v63 : IVec S4096 1 := andi main_v60 main_v62
  let main_c_24 : IVec S_ 1 := constantI S_ 1 1#1
  let main_v64 : IVec S_ 1 := (fun x v => Host.reduce IntOp.andi x v reducesTo_S4096_S_d0 h_S_) main_v63 main_c_24
  let main_v65 : IVec S_ 1 := andi main_v58 main_v64
  let main_c_25 : IVec S_ 32 := constantI S_ 32 0#32
  let main_v66 : IVec S4096 32 := broadcastInDim S4096 ![] bcast_S_S4096 main_c_25
  let main_v67 : IVec S4096 1 := cmpi .sge main_arg1 main_v66
  fn_part4 (F := F) main_arg1 main_v65 main_v67

def fn_part2 {F : FTy → Type} [FloatOps F] (main_arg0 : IVec S4096 32) (main_arg1 : IVec S4096 32) (main_arg9 : FVec F S128 .f32) (main_arg10 : FVec F S128x256 .f32) (main_arg11 : FVec F S128 .f32) (main_arg12 : FVec F S1x128 .f32) (main_arg13 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x128 .f32 := Host.absf main_arg12
  let main_cst_18 : FVec F S_ .f32 := constant S_ .f32 0x7F800000#32
  let main_v50 : FVec F S1x128 .f32 := broadcastInDim S1x128 ![] bcast_S_S1x128 main_cst_18
  fn_part3 (F := F) main_arg0 main_arg1 main_arg13 main_v48 main_v49 main_v50

def fn_part1 {F : FTy → Type} [FloatOps F] (main_arg0 : IVec S4096 32) (main_arg1 : IVec S4096 32) (main_arg6 : FVec F S20000x128 .f32) (main_arg7 : FVec F S128x128 .f32) (main_arg8 : FVec F S128x256 .f32) (main_arg9 : FVec F S128 .f32) (main_arg10 : FVec F S128x256 .f32) (main_arg11 : FVec F S128 .f32) (main_arg12 : FVec F S1x128 .f32) (main_arg13 : FVec F S1 .f32) (main_v13 : IVec S_ 1) (main_v16 : IVec S20000x128 1) : IVec S_ 1 :=
  let main_c_5 : IVec S_ 1 := constantI S_ 1 1#1
  let main_v17 : IVec S_ 1 := (fun x v => Host.reduce IntOp.andi x v reducesTo_S20000x128_S_d0_1 h_S_) main_v16 main_c_5
  let main_v18 : IVec S_ 1 := andi main_v13 main_v17
  let main_v19 : FVec F S20000x128 .f32 := Host.absf main_arg6
  let main_cst_6 : FVec F S_ .f32 := constant S_ .f32 0x7F800000#32
  let main_v20 : FVec F S20000x128 .f32 := broadcastInDim S20000x128 ![] bcast_S_S20000x128 main_cst_6
  let main_v21 : IVec S20000x128 1 := cmpf .olt main_v19 main_v20
  let main_c_7 : IVec S_ 1 := constantI S_ 1 1#1
  let main_v22 : IVec S_ 1 := (fun x v => Host.reduce IntOp.andi x v reducesTo_S20000x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg0 main_arg1 main_arg9 main_arg10 main_arg11 main_arg12 main_arg13 main_v33

def fn {F : FTy → Type} [FloatOps F] (main_arg0 : IVec S4096 32) (main_arg1 : IVec S4096 32) (main_arg2 : FVec F S4096x128 .f32) (main_arg3 : FVec F S20000x128 .f32) (main_arg4 : FVec F S20000x128 .f32) (main_arg5 : FVec F S20000x128 .f32) (main_arg6 : FVec F S20000x128 .f32) (main_arg7 : FVec F S128x128 .f32) (main_arg8 : FVec F S128x256 .f32) (main_arg9 : FVec F S128 .f32) (main_arg10 : FVec F S128x256 .f32) (main_arg11 : FVec F S128 .f32) (main_arg12 : FVec F S1x128 .f32) (main_arg13 : FVec F S1 .f32) : IVec S_ 1 :=
  let main_v0 : FVec F S4096x128 .f32 := Host.absf main_arg2
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S20000x128 .f32 := Host.absf main_arg3
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S20000x128 .f32 := Host.absf main_arg4
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S20000x128 .f32 := Host.absf main_arg5
  let main_cst_4 : FVec F S_ .f32 := constant S_ .f32 0x7F800000#32
  let main_v15 : FVec F S20000x128 .f32 := broadcastInDim S20000x128 ![] bcast_S_S20000x128 main_cst_4
  let main_v16 : IVec S20000x128 1 := cmpf .olt main_v14 main_v15
  fn_part1 (F := F) main_arg0 main_arg1 main_arg6 main_arg7 main_arg8 main_arg9 main_arg10 main_arg11 main_arg12 main_arg13 main_v13 main_v16
-- ==== Kernel.lean ====
abbrev S4096 : Shape := ⟨1, ![4096]⟩
abbrev S4096x128 : Shape := ⟨2, ![4096, 128]⟩
abbrev S20000x128 : Shape := ⟨2, ![20000, 128]⟩
abbrev S128x128 : Shape := ⟨2, ![128, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩
abbrev S4096x1 : Shape := ⟨2, ![4096, 1]⟩
abbrev S1x1 : Shape := ⟨2, ![1, 1]⟩
abbrev S128x4096 : Shape := ⟨2, ![128, 4096]⟩
abbrev S1x4096 : Shape := ⟨2, ![1, 4096]⟩
abbrev S1x32 : Shape := ⟨2, ![1, 32]⟩
abbrev S32x128 : Shape := ⟨2, ![32, 128]⟩
abbrev S32x1x128 : Shape := ⟨3, ![32, 1, 128]⟩
abbrev S1x128x128 : Shape := ⟨3, ![1, 128, 128]⟩
abbrev S32x128x128 : Shape := ⟨3, ![32, 128, 128]⟩

abbrev nBuf : Space → Nat
  | .hbm => 133
  | .vmem => 20
  | .smem => 0
  | _ => 0

abbrev hbmTy0_0 (i : Nat) : BufTy := match i % 128 with
  | 0 => ⟨S4096, .i32⟩
  | 1 => ⟨S4096, .i32⟩
  | 2 => ⟨S4096x128, .f32⟩
  | 3 => ⟨S20000x128, .f32⟩
  | 4 => ⟨S20000x128, .f32⟩
  | 5 => ⟨S20000x128, .f32⟩
  | 6 => ⟨S20000x128, .f32⟩
  | 7 => ⟨S128x128, .f32⟩
  | 8 => ⟨S128x256, .f32⟩
  | 9 => ⟨S128, .f32⟩
  | 10 => ⟨S128x256, .f32⟩
  | 11 => ⟨S128, .f32⟩
  | 12 => ⟨S1x128, .f32⟩
  | 13 => ⟨S1, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S1, .i32⟩
  | 23 => ⟨S_, .i32⟩
  | 24 => ⟨S4096x1, .i32⟩
  | 25 => ⟨S4096x1, .i1⟩
  | 26 => ⟨S1x1, .i32⟩
  | 27 => ⟨S4096x1, .i32⟩
  | 28 => ⟨S4096x1, .i1⟩
  | 29 => ⟨S4096x1, .i1⟩
  | 30 => ⟨S_, .i1⟩
  | 31 => ⟨S4096, .i1⟩
  | 32 => ⟨S4096x128, .f32⟩
  | 33 => ⟨S4096x128, .i1⟩
  | 34 => ⟨S_, .f32⟩
  | 35 => ⟨S4096x128, .f32⟩
  | 36 => ⟨S4096x128, .f32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S1, .i32⟩
  | 46 => ⟨S_, .i32⟩
  | 47 => ⟨S4096x1, .i32⟩
  | 48 => ⟨S4096x1, .i1⟩
  | 49 => ⟨S1x1, .i32⟩
  | 50 => ⟨S4096x1, .i32⟩
  | 51 => ⟨S4096x1, .i1⟩
  | 52 => ⟨S4096x1, .i1⟩
  | 53 => ⟨S_, .i1⟩
  | 54 => ⟨S4096, .i1⟩
  | 55 => ⟨S4096x128, .f32⟩
  | 56 => ⟨S4096x128, .i1⟩
  | 57 => ⟨S_, .f32⟩
  | 58 => ⟨S4096x128, .f32⟩
  | 59 => ⟨S4096x128, .f32⟩
  | 60 => ⟨S_, .i32⟩
  | 61 => ⟨S4096, .i32⟩
  | 62 => ⟨S4096, .i1⟩
  | 63 => ⟨S_, .i32⟩
  | 64 => ⟨S4096, .i32⟩
  | 65 => ⟨S4096, .i32⟩
  | 66 => ⟨S4096, .i32⟩
  | 67 => ⟨S4096x1, .i32⟩
  | 68 => ⟨S1, .i32⟩
  | 69 => ⟨S_, .i32⟩
  | 70 => ⟨S4096x1, .i32⟩
  | 71 => ⟨S4096x1, .i1⟩
  | 72 => ⟨S1x1, .i32⟩
  | 73 => ⟨S4096x1, .i32⟩
  | 74 => ⟨S4096x1, .i1⟩
  | 75 => ⟨S4096x1, .i1⟩
  | 76 => ⟨S_, .i1⟩
  | 77 => ⟨S4096, .i1⟩
  | 78 => ⟨S4096x128, .f32⟩
  | 79 => ⟨S4096x128, .i1⟩
  | 80 => ⟨S_, .f32⟩
  | 81 => ⟨S4096x128, .f32⟩
  | 82 => ⟨S4096x128, .f32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S1, .i32⟩
  | 92 => ⟨S_, .i32⟩
  | 93 => ⟨S4096x1, .i32⟩
  | 94 => ⟨S4096x1, .i1⟩
  | 95 => ⟨S1x1, .i32⟩
  | 96 => ⟨S4096x1, .i32⟩
  | 97 => ⟨S4096x1, .i1⟩
  | 98 => ⟨S4096x1, .i1⟩
  | 99 => ⟨S_, .i1⟩
  | 100 => ⟨S4096, .i1⟩
  | 101 => ⟨S4096x128, .f32⟩
  | 102 => ⟨S4096x128, .i1⟩
  | 103 => ⟨S_, .f32⟩
  | 104 => ⟨S4096x128, .f32⟩
  | 105 => ⟨S4096x128, .f32⟩
  | 106 => ⟨S128x256, .f32⟩
  | 107 => ⟨S128x256, .f32⟩
  | 108 => ⟨S1x128, .f32⟩
  | 109 => ⟨S128x128, .f32⟩
  | 110 => ⟨S128x128, .f32⟩
  | 111 => ⟨S128x128, .f32⟩
  | 112 => ⟨S128x128, .f32⟩
  | 113 => ⟨S128x128, .f32⟩
  | 114 => ⟨S128x128, .bf16⟩
  | 115 => ⟨S128x128, .f32⟩
  | 116 => ⟨S128x128, .bf16⟩
  | 117 => ⟨S128x128, .f32⟩
  | 118 => ⟨S128x128, .f32⟩
  | 119 => ⟨S1x128, .f32⟩
  | 120 => ⟨S128x128, .f32⟩
  | 121 => ⟨S128x128, .f32⟩
  | 122 => ⟨S128x128, .f32⟩
  | 123 => ⟨S128x128, .f32⟩
  | 124 => ⟨S1x128, .f32⟩
  | 125 => ⟨S128x128, .f32⟩
  | 126 => ⟨S128x128, .f32⟩
  | 127 => ⟨S128x4096, .f32⟩
  | _ => ⟨S4096, .i32⟩

abbrev hbmTy0_1 (i : Nat) : BufTy := match i % 128 with
  | 0 => ⟨S_, .f32⟩
  | 1 => ⟨S4096, .f32⟩
  | 2 => ⟨S1x4096, .f32⟩
  | 3 => ⟨S1x4096, .f32⟩
  | 4 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S128x128, .f32⟩
  | .local _ .vmem, ⟨14, _⟩ => ⟨S128x128, .bf16⟩
  | .local _ .vmem, ⟨15, _⟩ => ⟨S128x128, .bf16⟩
  | .local _ .vmem, ⟨16, _⟩ => ⟨S1x128, .f32⟩
  | .local _ .vmem, ⟨17, _⟩ => ⟨S1, .f32⟩
  | .local _ .vmem, ⟨18, _⟩ => ⟨S1x128, .f32⟩
  | .local _ .vmem, ⟨19, _⟩ => ⟨S1x128, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v1 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v2 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v3 : Ref sig .tc := ⟨.hbm, 105, rfl⟩
abbrev main_v4 : Ref sig .tc := ⟨.hbm, 106, rfl⟩
abbrev main_v5 : Ref sig .tc := ⟨.hbm, 107, rfl⟩
abbrev main_v6 : Ref sig .tc := ⟨.hbm, 108, rfl⟩
abbrev main_v7 : Ref sig .tc := ⟨.hbm, 109, rfl⟩
abbrev main_v8 : Ref sig .tc := ⟨.hbm, 110, rfl⟩
abbrev main_v9 : Ref sig .tc := ⟨.hbm, 111, rfl⟩
abbrev main_v10 : Ref sig .tc := ⟨.hbm, 112, rfl⟩
abbrev main_v11 : Ref sig .tc := ⟨.hbm, 113, rfl⟩
abbrev main_v12 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_v22 : Ref sig .tc := ⟨.hbm, 124, rfl⟩
abbrev main_v23 : Ref sig .tc := ⟨.hbm, 125, rfl⟩
abbrev main_v24 : Ref sig .tc := ⟨.hbm, 126, rfl⟩
abbrev main_v25 : Ref sig .tc := ⟨.hbm, 127, rfl⟩
abbrev main_cst : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  slices_S128x256_S128x128_0_0 : S128x256.Slices ![0, 0] S128x128
  slices_S128x256_S128x128_0_128 : S128x256.Slices ![0, 128] S128x128
  transposes_S128x128_S128x128_1_0 : S128x128.Transposes [1, 0] S128x128
  bitsLt_bf16_f32 : FTy.bits .bf16 < FTy.bits .f32
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  transposes_S4096x128_S128x4096_1_0 : S4096x128.Transposes [1, 0] S128x4096
  reducesTo_S4096x128_S4096_d1 : S4096x128.ReducesTo [1] S4096
  bcast_S4096_S1x4096_1 : S4096.BroadcastsInDim S1x4096 (![1] : Fin 1 → Fin S1x4096.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S1_S1_0 : ∀ a, (![0] : Fin 1 → Nat) a + S1.size a ≤ S1.size a
  h_S1 : 0 < S1.numel
  inpos_S1_p0 : ∀ a, (![0] : Fin 1 → Nat) a < S1.size a
  inb_S128x128_S32x128_0_0 : ∀ a, (![0, 0] : Fin 2 → Nat) a + S32x128.size a ≤ S128x128.size a
  h_S32x128 : 0 < S32x128.numel
  shapeCasts_S32x128_S32x128 : S32x128.ShapeCasts S32x128
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  reduces_S32x128x128_S32x128 : S32x128x128.Reduces [2] S32x128
  inb_S128x128_S32x128_32_0 : ∀ a, (![32, 0] : Fin 2 → Nat) a + S32x128.size a ≤ S128x128.size a
  inb_S128x128_S32x128_64_0 : ∀ a, (![64, 0] : Fin 2 → Nat) a + S32x128.size a ≤ S128x128.size a
  inb_S128x128_S32x128_96_0 : ∀ a, (![96, 0] : Fin 2 → Nat) a + S32x128.size a ≤ S128x128.size a
  shapeCasts_S1x4096_S4096 : S1x4096.ShapeCasts S4096
  gather_S20000x128_S4096x1_S4096x128_1_0_n_n_0_1_1128_wf : GatherDims.WF S20000x128 S4096x1 S4096x128 [1] [0] [] [0] [] 1 ![1, 128]
  dot_S128x128_S128x128_S128x128_1_0_0_1_n_n_wf : DotDims.WF S128x128 S128x128 S128x128 [1] [0] [0] [1] [] []
  dot_S1x32_S32x128_S1x128_1_0_0_1_n_n_wf : DotDims.WF S1x32 S32x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .f32 = 32 ∨ (Rect.block (s := S4096x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S4096x128.size a
  hwx0_1 : ∀ i : grid0.Coords, EltTy.bits .f32 = 32 ∨ (Rect.block (s := S4096x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S4096x128.size a
  hwx0_2 : ∀ i : grid0.Coords, EltTy.bits .f32 = 32 ∨ (Rect.block (s := S4096x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S4096x128.size a
  hwx0_3 : ∀ i : grid0.Coords, EltTy.bits .f32 = 32 ∨ (Rect.block (s := S4096x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x4096.size a
  hwx0_4 : ∀ i : grid0.Coords, EltTy.bits .f32 = 32 ∨ (Rect.block (s := S128x4096) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x4096.size a
  hwx0_5 : ∀ i : grid0.Coords, EltTy.bits .f32 = 32 ∨ (Rect.block (s := S1x4096) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x4096.size a
  hwx0_12 : ∀ i : grid0.Coords, EltTy.bits .f32 = 32 ∨ (Rect.block (s := S1x4096) S1x128.size (cc0_transform_12 i) (hinb0_12 i)).WholeWords (EltTy.packing .f32)

variable [Facts₀]

def gather_S20000x128_S4096x1_S4096x128_1_0_n_n_0_1_1128 : GatherDims S20000x128 S4096x1 S4096x128 where
  offsetDims := [1]
  collapsedSliceDims := [0]
  operandBatchingDims := []
  startIndicesBatchingDims := []
  startIndexMap := [0]
  indexVectorDim := 1
  sliceSizes := ![1, 128]
  wf := gather_S20000x128_S4096x1_S4096x128_1_0_n_n_0_1_1128_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x32_S32x128_S1x128_1_0_0_1_n_n : DotDims S1x32 S32x128 S1x128 where
  lhsContracting := [1]
  rhsContracting := [0]
  lhsNonContracting := [0]
  rhsNonContracting := [1]
  lhsBatch := []
  rhsBatch := []
  wf := dot_S1x32_S32x128_S1x128_1_0_0_1_n_n_wf

abbrev win0_0 : Pipeline.Window sig grid0 :=
  Pipeline.Window.ofSpec (Memref.whole main_v2) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v28) S1x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096 : Shape := ⟨1, ![4096]⟩
abbrev S4096x128 : Shape := ⟨2, ![4096, 128]⟩
abbrev S20000x128 : Shape := ⟨2, ![20000, 128]⟩
abbrev S128x128 : Shape := ⟨2, ![128, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩
abbrev S4096x1 : Shape := ⟨2, ![4096, 1]⟩
abbrev S1x128x128 : Shape := ⟨3, ![1, 128, 128]⟩
abbrev S4096x128x128 : Shape := ⟨3, ![4096, 128, 128]⟩
abbrev S4096x1x128 : Shape := ⟨3, ![4096, 1, 128]⟩
abbrev S4096x128x256 : Shape := ⟨3, ![4096, 128, 256]⟩
abbrev S1x1x128 : Shape := ⟨3, ![1, 1, 128]⟩
abbrev S4096x128x1 : Shape := ⟨3, ![4096, 128, 1]⟩
abbrev S1x1x1 : Shape := ⟨3, ![1, 1, 1]⟩

abbrev nBuf : Space → Nat
  | .hbm => 140
  | .vmem => 0
  | .smem => 0
  | _ => 0

abbrev hbmTy0_0 (i : Nat) : BufTy := match i % 128 with
  | 0 => ⟨S4096, .i32⟩
  | 1 => ⟨S4096, .i32⟩
  | 2 => ⟨S4096x128, .f32⟩
  | 3 => ⟨S20000x128, .f32⟩
  | 4 => ⟨S20000x128, .f32⟩
  | 5 => ⟨S20000x128, .f32⟩
  | 6 => ⟨S20000x128, .f32⟩
  | 7 => ⟨S128x128, .f32⟩
  | 8 => ⟨S128x256, .f32⟩
  | 9 => ⟨S128, .f32⟩
  | 10 => ⟨S128x256, .f32⟩
  | 11 => ⟨S128, .f32⟩
  | 12 => ⟨S1x128, .f32⟩
  | 13 => ⟨S1, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096x128, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x128, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x128, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S4096x128, .f32⟩
  | 50 => ⟨S1x128x128, .f32⟩
  | 51 => ⟨S4096x128x128, .f32⟩
  | 52 => ⟨S4096x1x128, .f32⟩
  | 53 => ⟨S4096x128x128, .f32⟩
  | 54 => ⟨S4096x1x128, .f32⟩
  | 55 => ⟨S4096x128x128, .f32⟩
  | 56 => ⟨S128x256, .f32⟩
  | 57 => ⟨S_, .f32⟩
  | 58 => ⟨S128x256, .f32⟩
  | 59 => ⟨S128x256, .f32⟩
  | 60 => ⟨S_, .f32⟩
  | 61 => ⟨S128x256, .f32⟩
  | 62 => ⟨S128x256, .f32⟩
  | 63 => ⟨S128x256, .f32⟩
  | 64 => ⟨S128x256, .f32⟩
  | 65 => ⟨S_, .f32⟩
  | 66 => ⟨S128x256, .f32⟩
  | 67 => ⟨S128x256, .f32⟩
  | 68 => ⟨S_, .f32⟩
  | 69 => ⟨S128x256, .f32⟩
  | 70 => ⟨S128x256, .f32⟩
  | 71 => ⟨S128x256, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S4096x128x256, .f32⟩
  | 81 => ⟨S4096x128x128, .f32⟩
  | 82 => ⟨S1x1x128, .f32⟩
  | 83 => ⟨S4096x128x128, .f32⟩
  | 84 => ⟨S4096x128x128, .f32⟩
  | 85 => ⟨S4096x128x128, .f32⟩
  | 86 => ⟨S4096x128x128, .f32⟩
  | 87 => ⟨S_, .f32⟩
  | 88 => ⟨S4096x128x128, .f32⟩
  | 89 => ⟨S4096x128x128, .f32⟩
  | 90 => ⟨S_, .f32⟩
  | 91 => ⟨S4096x128x128, .f32⟩
  | 92 => ⟨S4096x128x128, .f32⟩
  | 93 => ⟨S4096x128x256, .f32⟩
  | 94 => ⟨S4096x128x128, .f32⟩
  | 95 => ⟨S1x1x128, .f32⟩
  | 96 => ⟨S4096x128x128, .f32⟩
  | 97 => ⟨S4096x128x128, .f32⟩
  | 98 => ⟨S4096x128x128, .f32⟩
  | 99 => ⟨S4096x128x128, .f32⟩
  | 100 => ⟨S_, .f32⟩
  | 101 => ⟨S4096x128x128, .f32⟩
  | 102 => ⟨S4096x128x128, .f32⟩
  | 103 => ⟨S_, .f32⟩
  | 104 => ⟨S4096x128x128, .f32⟩
  | 105 => ⟨S4096x128x128, .f32⟩
  | 106 => ⟨S4096x128, .f32⟩
  | 107 => ⟨S4096x128, .f32⟩
  | 108 => ⟨S4096x128, .f32⟩
  | 109 => ⟨S_, .f32⟩
  | 110 => ⟨S4096x128, .f32⟩
  | 111 => ⟨S4096x128, .f32⟩
  | 112 => ⟨S_, .f32⟩
  | 113 => ⟨S4096x128, .f32⟩
  | 114 => ⟨S4096x128, .f32⟩
  | 115 => ⟨S4096x128x128, .f32⟩
  | 116 => ⟨S4096x1x128, .f32⟩
  | 117 => ⟨S4096x128x128, .f32⟩
  | 118 => ⟨S4096x128x128, .f32⟩
  | 119 => ⟨S4096x128x1, .f32⟩
  | 120 => ⟨S1x1x1, .f32⟩
  | 121 => ⟨S4096x128x1, .f32⟩
  | 122 => ⟨S4096x128x1, .f32⟩
  | 123 => ⟨S4096x128x1, .f32⟩
  | 124 => ⟨S4096x128x1, .f32⟩
  | 125 => ⟨S_, .f32⟩
  | 126 => ⟨S4096x128x1, .f32⟩
  | 127 => ⟨S4096x128x1, .f32⟩
  | _ => ⟨S4096, .i32⟩

abbrev hbmTy0_1 (i : Nat) : BufTy := match i % 128 with
  | 0 => ⟨S_, .f32⟩
  | 1 => ⟨S4096x128x1, .f32⟩
  | 2 => ⟨S4096x128x1, .f32⟩
  | 3 => ⟨S4096x128x1, .f32⟩
  | 4 => ⟨S4096x128x1, .f32⟩
  | 5 => ⟨S_, .f32⟩
  | 6 => ⟨S4096x1, .f32⟩
  | 7 => ⟨S_, .f32⟩
  | 8 => ⟨S4096, .f32⟩
  | 9 => ⟨S4096x1, .f32⟩
  | 10 => ⟨S4096x1, .f32⟩
  | 11 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call0_cst : Ref sig .tc := ⟨.hbm, 57, rfl⟩
abbrev main_call0_v0 : Ref sig .tc := ⟨.hbm, 58, rfl⟩
abbrev main_v35 : Ref sig .tc := ⟨.hbm, 59, rfl⟩
abbrev main_cst : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call1_cst : Ref sig .tc := ⟨.hbm, 65, rfl⟩
abbrev main_call1_v0 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call2_cst : Ref sig .tc := ⟨.hbm, 73, rfl⟩
abbrev main_call2_v0 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_cst_14 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_15 : Ref sig .tc := ⟨.hbm, 125, rfl⟩
abbrev main_v88 : Ref sig .tc := ⟨.hbm, 126, rfl⟩
abbrev main_v89 : Ref sig .tc := ⟨.hbm, 127, rfl⟩
abbrev main_cst_16 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_17 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S128x128_S1x128x128_1_2 : S128x128.BroadcastsInDim S1x128x128 (![1, 2] : Fin 2 → Fin S1x128x128.rank)
  bcast_S1x128x128_S4096x128x128_0_1_2 : S1x128x128.BroadcastsInDim S4096x128x128 (![0, 1, 2] : Fin 3 → Fin S4096x128x128.rank)
  bcast_S4096x128_S4096x1x128_0_2 : S4096x128.BroadcastsInDim S4096x1x128 (![0, 2] : Fin 2 → Fin S4096x1x128.rank)
  bcast_S4096x1x128_S4096x128x128_0_1_2 : S4096x1x128.BroadcastsInDim S4096x128x128 (![0, 1, 2] : Fin 3 → Fin S4096x128x128.rank)
  bcast_S_S128x256 : S_.BroadcastsInDim S128x256 (![] : Fin 0 → Fin S128x256.rank)
  bcast_S_S1x128 : S_.BroadcastsInDim S1x128 (![] : Fin 0 → Fin S1x128.rank)
  concatenates_S4096x128x128_S4096x128x128_S4096x128x256_d2 : Shape.Concatenates [S4096x128x128, S4096x128x128] S4096x128x256 2
  bcast_S128_S1x1x128_2 : S128.BroadcastsInDim S1x1x128 (![2] : Fin 1 → Fin S1x1x128.rank)
  bcast_S1x1x128_S4096x128x128_0_1_2 : S1x1x128.BroadcastsInDim S4096x128x128 (![0, 1, 2] : Fin 3 → Fin S4096x128x128.rank)
  bcast_S_S4096x128x128 : S_.BroadcastsInDim S4096x128x128 (![] : Fin 0 → Fin S4096x128x128.rank)
  bcast_S_S4096x128 : S_.BroadcastsInDim S4096x128 (![] : Fin 0 → Fin S4096x128.rank)
  bcast_S1_S1x1x1_2 : S1.BroadcastsInDim S1x1x1 (![2] : Fin 1 → Fin S1x1x1.rank)
  bcast_S1x1x1_S4096x128x1_0_1_2 : S1x1x1.BroadcastsInDim S4096x128x1 (![0, 1, 2] : Fin 3 → Fin S4096x128x1.rank)
  bcast_S_S4096x128x1 : S_.BroadcastsInDim S4096x128x1 (![] : Fin 0 → Fin S4096x128x1.rank)
  bcast_S4096x128_S4096x128x1_0_1 : S4096x128.BroadcastsInDim S4096x128x1 (![0, 1] : Fin 2 → Fin S4096x128x1.rank)
  reducesTo_S4096x128x1_S4096x1_d1 : S4096x128x1.ReducesTo [1] S4096x1
  h_S_ : 0 < S_.numel
  reducesTo_S4096x128_S4096_d1 : S4096x128.ReducesTo [1] S4096
  shapeCasts_S4096x1_S4096 : S4096x1.ShapeCasts S4096
  gather_S20000x128_S4096x1_S4096x128_1_0_n_n_0_1_1128_wf : GatherDims.WF S20000x128 S4096x1 S4096x128 [1] [0] [] [0] [] 1 ![1, 128]
  dot_S4096x128x256_S128x256_S4096x128x128_2_1_01_0_n_n_wf : DotDims.WF S4096x128x256 S128x256 S4096x128x128 [2] [1] [0, 1] [0] [] []
  dot_S4096x128x128_S1x128_S4096x128x1_2_1_01_0_n_n_wf : DotDims.WF S4096x128x128 S1x128 S4096x128x1 [2] [1] [0, 1] [0] [] []

variable [Facts₀]

def gather_S20000x128_S4096x1_S4096x128_1_0_n_n_0_1_1128 : GatherDims S20000x128 S4096x1 S4096x128 where
  offsetDims := [1]
  collapsedSliceDims := [0]
  operandBatchingDims := []
  startIndicesBatchingDims := []
  startIndexMap := [0]
  indexVectorDim := 1
  sliceSizes := ![1, 128]
  wf := gather_S20000x128_S4096x1_S4096x128_1_0_n_n_0_1_1128_wf
def dot_S4096x128x256_S128x256_S4096x128x128_2_1_01_0_n_n : DotDims S4096x128x256 S128x256 S4096x128x128 where
  lhsContracting := [2]
  rhsContracting := [1]
  lhsNonContracting := [0, 1]
  rhsNonContracting := [0]
  lhsBatch := []
  rhsBatch := []
  wf := dot_S4096x128x256_S128x256_S4096x128x128_2_1_01_0_n_n_wf
def dot_S4096x128x128_S1x128_S4096x128x1_2_1_01_0_n_n : DotDims S4096x128x128 S1x128 S4096x128x1 where
  lhsContracting := [2]
  rhsContracting := [1]
  lhsNonContracting := [0, 1]
  rhsNonContracting := [0]
  lhsBatch := []
  rhsBatch := []
  wf := dot_S4096x128x128_S1x128_S4096x128x1_2_1_01_0_n_n_wf

class Facts : Prop extends Facts₀ where

variable [Facts]
-- ==== Proof.Spec.lean ====
/-
  What both programs compute, written once over the extended reals.

  The operands are the four gathered embedding tables (one row per sample), the per-sample knowledge mask `kq`, the
  knowledge table `kn`, and the weights and biases of three positive-weight linear layers.  A positive-weight layer
  uses |w| for each weight; one program takes |w| as max(w, −w), the other as 2·max(−w, 0) + w.

  For sample b and knowledge item k the first two layers act on the concatenation [x_b ; kn_k] of a sample row and a
  knowledge row, so each splits into a sample half (a sum over the first 128 input columns) and a knowledge half
  (a sum over the last 128).  One program sums all 256 columns at once; the other forms the two halves apart and adds
  them, and folds the third layer's weight into the per-sample factor before the sum over features.  The gate of
  (b, k) is the logistic of that third layer, and the result at b is the kq-weighted sum of the 128 gates over the sum
  of kq's row; one program takes the weighted sum in four stretches of 32 items.
-/
import Idealize.ShloMosaic.PureOps.Ideal.Laws
import Idealize.ShloMosaic.Lib.ValueIdx

noncomputable section

open scoped BigOperators

namespace Cert.Spec

open Idealize.ShloMosaic Idealize.ShloMosaic.ValueIdx

/-- A rank-2 array of extended reals. -/
abbrev M2 (a b : Nat) := FVec Ideal ⟨2, ![a, b]⟩ .f32
/-- A rank-1 array of extended reals. -/
abbrev M1 (a : Nat) := FVec Ideal ⟨1, ![a]⟩ .f32

/-- |x| taken as max(x, −x). -/
def mag (x : EReal) : EReal := max x (-x)
/-- |x| taken as 2·max(−x, 0) + x. -/
def pos (x : EReal) : EReal := ((2 : ℝ) : EReal) * max (-x) 0 + x

/-- Row `e` of the result is the table's row numbered by the `e`-th id, the id read as a signed word and clamped
    into the table. -/
def rowsOf (tbl : M2 20000 128) (ids : IVec ⟨1, ![4096]⟩ 32) : M2 4096 128 :=
  fun j => tbl (ix2 ⟨min (ids (ix1 (j 0))).toInt.toNat (20000 - 1), by omega⟩ (j 1))

/-- Every id names a row of the table. -/
def InRange (ids : IVec ⟨1, ![4096]⟩ 32) : Prop := ∀ e : Fin 4096, (ids (ix1 e)).toNat < 20000

/-- Every entry is a real number. -/
def Finite {s : Shape} (x : FVec Ideal s .f32) : Prop := ∀ i, ∃ r : ℝ, x i = (r : EReal)

/-- The operands after the gathers. -/
structure Tabs where
  sv : M2 4096 128
  ev : M2 4096 128
  sq : M2 4096 128
  ek : M2 4096 128
  kq : M2 4096 128
  kn : M2 128 128
  W1 : M2 128 256
  b1 : M1 128
  W2 : M2 128 256
  b2 : M1 128
  W3 : M2 1 128
  b3 : M1 1

/-- The operands from the programs' fourteen arguments. -/
def tabs (a0 a1 : IVec ⟨1, ![4096]⟩ 32) (a2 : M2 4096 128) (a3 a4 a5 a6 : M2 20000 128) (a7 : M2 128 128)
    (a8 : M2 128 256) (a9 : M1 128) (a10 : M2 128 256) (a11 : M1 128) (a12 : M2 1 128) (a13 : M1 1) : Tabs where
  sv := rowsOf a5 a0
  ev := rowsOf a6 a1
  sq := rowsOf a3 a0
  ek := rowsOf a4 a1
  kq := a2
  kn := a7
  W1 := a8
  b1 := a9
  W2 := a10
  b2 := a11
  W3 := a12
  b3 := a13

/-- Column `d` of the sample half of a 256-column weight row. -/
def lo (d : Fin 128) : Fin 256 := ⟨d.val, by omega⟩
/-- Column `d` of the knowledge half. -/
def hi (d : Fin 128) : Fin 256 := ⟨128 + d.val, by omega⟩

/-! ## Halves apart, the third weight folded in, four stretches -/

/-- The sample half of a layer at (b, e). -/
def actS (x : M2 4096 128) (W : M2 128 256) (b : Fin 4096) (e : Fin 128) : EReal :=
  ∑ d : Fin 128, x (ix2 b d) * mag (W (ix2 e (lo d)))
/-- The knowledge half of a layer at (k, e), with the bias. -/
def actK (kn : M2 128 128) (W : M2 128 256) (bias : M1 128) (k e : Fin 128) : EReal :=
  (∑ d : Fin 128, kn (ix2 k d) * mag (W (ix2 e (hi d)))) + bias (ix1 e)
/-- The per-sample factor with the third layer's weight folded in. -/
def wgt (T : Tabs) (b : Fin 4096) (e : Fin 128) : EReal :=
  Ideal.logistic (T.sq (ix2 b e) * T.ek (ix2 b e)) * mag (T.W3 (ix2 0 e))
/-- The gate of knowledge item k for sample b. -/
def gateK (T : Tabs) (k : Fin 128) (b : Fin 4096) : EReal :=
  Ideal.logistic ((∑ e : Fin 128,
      (Ideal.logistic (actK T.kn T.W1 T.b1 k e + actS T.sv T.W1 b e)
        - Ideal.logistic (actK T.kn T.W2 T.b2 k e + actS T.ev T.W2 b e)) * wgt T b e) + T.b3 (ix1 0))
/-- Item `j` of stretch `c`. -/
def item (c : Fin 4) (j : Fin 32) : Fin 128 := ⟨32 * c.val + j.val, by omega⟩
/-- The weighted gates of one stretch of 32 items, each under a factor one. -/
def stretch (T : Tabs) (c : Fin 4) (b : Fin 4096) : EReal :=
  ∑ j : Fin 32, (1 : EReal) * (gateK T (item c j) b * T.kq (ix2 b (item c j)))
/-- The result at sample b, in this arrangement. -/
def outK (T : Tabs) (b : Fin 4096) : EReal :=
  Ideal.div ((((0 + stretch T 0 b) + stretch T 1 b) + stretch T 2 b) + stretch T 3 b)
    (0 + ∑ k : Fin 128, T.kq (ix2 b k))

/-! ## All 256 columns at once -/

/-- Column `d` of the concatenation [x_b ; kn_k]. -/
def cat (x : M2 4096 128) (kn : M2 128 128) (b : Fin 4096) (k : Fin 128) (d : Fin 256) : EReal :=
  if h : d.val < 128 then x (ix2 b ⟨d.val, h⟩) else kn (ix2 k ⟨d.val - 128, by omega⟩)
/-- A whole layer at (b, k, e). -/
def layer (x : M2 4096 128) (kn : M2 128 128) (W : M2 128 256) (bias : M1 128) (b : Fin 4096) (k e : Fin 128) : EReal :=
  (∑ d : Fin 256, cat x kn b k d * pos (W (ix2 e d))) + bias (ix1 e)
/-- The gate of (b, k). -/
def gateR (T : Tabs) (b : Fin 4096) (k : Fin 128) : EReal :=
  Ideal.logistic ((∑ d : Fin 128,
      ((Ideal.logistic (layer T.sv T.kn T.W1 T.b1 b k d) - Ideal.logistic (layer T.ev T.kn T.W2 T.b2 b k d))
        * Ideal.logistic (T.sq (ix2 b d) * T.ek (ix2 b d))) * pos (T.W3 (ix2 0 d))) + T.b3 (ix1 0))
/-- The result at sample b, in this arrangement. -/
def outR (T : Tabs) (b : Fin 4096) : EReal :=
  Ideal.div (0 + ∑ k : Fin 128, gateR T b k * T.kq (ix2 b k)) (0 + ∑ k : Fin 128, T.kq (ix2 b k))

end Cert.Spec

end
-- ==== Proof.SpecLaw.lean ====
/-
  The two arrangements of the specification compute the same result when the three layers' weights are real numbers.

  Only the finiteness of the weights is used, and only to identify the two spellings of |w|; every other operand ranges
  over all extended reals, so the rest uses nothing beyond commutativity and associativity of the sum, associativity of
  the product, and the neutral elements 0 and 1.
-/
import proofs.«426876_j71004399337964_3_alg».proof.Proof.Spec
import Mathlib.Algebra.BigOperators.Fin
import Mathlib.Data.EReal.Operations
import Mathlib.Tactic.Linarith
import Mathlib.Tactic.Ring

noncomputable section

open scoped BigOperators

namespace Cert.Spec

open Idealize.ShloMosaic Idealize.ShloMosaic.ValueIdx

/-! ## The two spellings of |w| agree on the reals -/

/-- For a real r, 2·max(−r, 0) + r = max(r, −r): for r ≥ 0 both are r, for r ≤ 0 both are −r. -/
theorem pos_coe (r : ℝ) : pos (r : EReal) = mag (r : EReal) := by
  unfold pos mag
  rcases le_total 0 r with h | h
  · have h0 : (0 : EReal) ≤ (r : EReal) := EReal.coe_nonneg.mpr h
    have hneg : -(r : EReal) ≤ 0 := by
      rw [← EReal.coe_neg, ← EReal.coe_zero, EReal.coe_le_coe_iff]; linarith
    rw [max_eq_right hneg, mul_zero, zero_add, max_eq_left (hneg.trans h0)]
  · have h0 : (r : EReal) ≤ 0 := by rw [← EReal.coe_zero, EReal.coe_le_coe_iff]; exact h
    have hneg : (0 : EReal) ≤ -(r : EReal) := by
      rw [← EReal.coe_neg, ← EReal.coe_zero, EReal.coe_le_coe_iff]; linarith
    rw [max_eq_left hneg, max_eq_right (h0.trans hneg)]
    rw [← EReal.coe_neg, ← EReal.coe_mul, ← EReal.coe_add, EReal.coe_eq_coe_iff]; ring

/-- On an array of reals the two spellings of |w| agree at every entry. -/
theorem pos_eq_mag {s : Shape} {W : FVec Ideal s .f32} (hW : Finite W) (i : s.Idx) : pos (W i) = mag (W i) := by
  obtain ⟨r, hr⟩ := hW i
  rw [hr]; exact pos_coe r

/-! ## A sum over 256 columns is the sum over the first 128 plus the sum over the last 128 -/

theorem sum_halves (f : Fin 256 → EReal) :
    ∑ d : Fin 256, f d = (∑ d : Fin 128, f (lo d)) + ∑ d : Fin 128, f (hi d) := by
  refine (Fin.sum_univ_add (a := 128) (b := 128) f).trans ?_
  congr 1

theorem cat_lo (x : M2 4096 128) (kn : M2 128 128) (b : Fin 4096) (k d : Fin 128) :
    cat x kn b k (lo d) = x (ix2 b d) := by
  unfold cat
  rw [dif_pos (show (lo d).val < 128 from d.isLt)]
  rfl

theorem cat_hi (x : M2 4096 128) (kn : M2 128 128) (b : Fin 4096) (k d : Fin 128) :
    cat x kn b k (hi d) = kn (ix2 k d) := by
  unfold cat
  rw [dif_neg (show ¬ (hi d).val < 128 by show ¬ 128 + d.val < 128; omega)]
  congr 2
  apply Fin.ext
  show 128 + d.val - 128 = d.val
  omega

/-! ## A layer over all 256 columns is its knowledge half plus its sample half -/

/-- With real weights, the layer over the concatenation [x_b ; kn_k] is the sum over the knowledge columns, plus the
    bias, plus the sum over the sample columns: split the 256 columns into halves, read the concatenation on each,
    and reorder the three summands (addition of extended reals is commutative and associative). -/
theorem layer_eq (x : M2 4096 128) (kn : M2 128 128) (W : M2 128 256) (bias : M1 128) (hW : Finite W)
    (b : Fin 4096) (k e : Fin 128) :
    layer x kn W bias b k e = actK kn W bias k e + actS x W b e := by
  unfold layer actK actS
  rw [sum_halves]
  have hS : (∑ d : Fin 128, cat x kn b k (lo d) * pos (W (ix2 e (lo d))))
      = ∑ d : Fin 128, x (ix2 b d) * mag (W (ix2 e (lo d))) :=
    Finset.sum_congr rfl fun d _ => by rw [cat_lo, pos_eq_mag hW]
  have hK : (∑ d : Fin 128, cat x kn b k (hi d) * pos (W (ix2 e (hi d))))
      = ∑ d : Fin 128, kn (ix2 k d) * mag (W (ix2 e (hi d))) :=
    Finset.sum_congr rfl fun d _ => by rw [cat_hi, pos_eq_mag hW]
  rw [hS, hK]
  generalize (∑ d : Fin 128, x (ix2 b d) * mag (W (ix2 e (lo d)))) = s
  generalize (∑ d : Fin 128, kn (ix2 k d) * mag (W (ix2 e (hi d)))) = t
  rw [add_comm s t, add_assoc, add_comm s, ← add_assoc]

/-! ## The gates agree -/

/-- The two gates of (b, k) agree: the layers by the lemma above, |w₃| by the agreement of its two spellings, and
    ((p − q)·s)·|w| = (p − q)·(s·|w|) by associativity of the product of extended reals. -/
theorem gateR_eq_gateK (T : Tabs) (h1 : Finite T.W1) (h2 : Finite T.W2) (h3 : Finite T.W3)
    (b : Fin 4096) (k : Fin 128) : gateR T b k = gateK T k b := by
  unfold gateR gateK wgt
  congr 2
  refine Finset.sum_congr rfl fun e _ => ?_
  rw [layer_eq _ _ _ _ h1, layer_eq _ _ _ _ h2, pos_eq_mag h3, mul_assoc]

/-! ## 128 items are four stretches of 32 -/

theorem sum_stretches (g : Fin 128 → EReal) :
    ∑ k : Fin 128, g k
      = (((∑ j : Fin 32, g (item 0 j)) + ∑ j : Fin 32, g (item 1 j)) + ∑ j : Fin 32, g (item 2 j))
          + ∑ j : Fin 32, g (item 3 j) := by
  refine (Fin.sum_univ_add (a := 96) (b := 32) g).trans ?_
  refine congrArg₂ (· + ·) ?_ ?_
  · refine (Fin.sum_univ_add (a := 64) (b := 32) fun i => g (Fin.castAdd 32 i)).trans ?_
    refine congrArg₂ (· + ·) ?_ ?_
    · refine (Fin.sum_univ_add (a := 32) (b := 32) fun i => g (Fin.castAdd 32 (Fin.castAdd 32 i))).trans ?_
      refine congrArg₂ (· + ·) ?_ ?_
      · refine Finset.sum_congr rfl fun j _ => congrArg g (Fin.ext ?_)
        show j.val = 32 * 0 + j.val
        omega
      · refine Finset.sum_congr rfl fun j _ => congrArg g (Fin.ext ?_)
        show 32 + j.val = 32 * 1 + j.val
        omega
    · refine Finset.sum_congr rfl fun j _ => congrArg g (Fin.ext ?_)
      show 64 + j.val = 32 * 2 + j.val
      omega
  · refine Finset.sum_congr rfl fun j _ => congrArg g (Fin.ext ?_)
    show 96 + j.val = 32 * 3 + j.val
    omega

/-! ## The results agree -/

/-- With real weights in the three layers the two arrangements give the same result at every sample: the gates agree,
    the factors one and the leading zeros drop, and the weighted sum over 128 items is the sum of its four stretches. -/
theorem outK_eq_outR (T : Tabs) (h1 : Finite T.W1) (h2 : Finite T.W2) (h3 : Finite T.W3) (b : Fin 4096) :
    outK T b = outR T b := by
  unfold outK outR stretch
  congr 1
  simp only [one_mul, zero_add]
  rw [sum_stretches fun k => gateR T b k * T.kq (ix2 b k)]
  simp only [gateR_eq_gateK T h1 h2 h3]

end Cert.Spec

end
-- ==== Proof.PreSide.lean ====
/-
  The printed precondition, read back.

  The precondition is a conjunction of fourteen tests, each an "all entries" reduction by `and` of a pointwise test:
  twelve say |x| < +∞ at every entry of a float argument, two say 0 ≤ id and id < 20000 (signed) at every entry of an id
  vector.  A conjunction that is 1 has every conjunct 1; an "all" that is 1 has every entry 1; |x| < +∞ over the
  extended reals leaves x a real; and a 32-bit word in [0, 20000) signed is below 20000 unsigned.
-/
import Idealize.ShloMosaic.Lib.ReduceAll
import proofs.«426876_j71004399337964_3_alg».proof.Pre_finite_inputs
import proofs.«426876_j71004399337964_3_alg».proof.Proof.Spec

noncomputable section

namespace Cert.PreSide

open Idealize.ShloMosaic Idealize.ShloMosaic.ValueIdx Cert.Pre_finite_inputs

/-- The rank-0 shape has one index. -/
instance : Subsingleton S_.Idx := ⟨fun a b => funext fun d => d.elim0⟩

/-- A pointwise `and` that is 1 at an index has both operands 1 there. -/
theorem andi_apply_eq_one {s : Shape} (x y : IVec s 1) (i : s.Idx) : andi x y i = 1#1 ↔ x i = 1#1 ∧ y i = 1#1 :=
  IntOp.andi_eq_one

/-- The pattern 0x7F800000 is +∞. -/
theorem inf_bits : Ideal.ofBits .f32 0x7F800000#32 = (⊤ : EReal) := by
  simp [Ideal.ofBits, Ideal.ieee]

/-- An extended real whose absolute value max(x, −x) is below +∞ is a real. -/
theorem real_of_abs_lt_top (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

/-- ONE FINITENESS TEST: "all entries of |x| are below the broadcast +∞" makes every entry of x a real. -/
theorem finite_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi
        (cmpf .olt (Host.absf x) (broadcastInDim s ![] hb (constant (F := Ideal) S_ .f32 0x7F800000#32)))
        (constantI S_ 1 1#1) hr h0 ix0 = 1#1) : Cert.Spec.Finite x := by
  intro i
  have e := Host.reduce_andi_all _ _ hr h0 ix0 h i
  apply real_of_abs_lt_top
  rw [← inf_bits]
  exact e

/-- A 32-bit word in [0, 20000) signed is below 20000 unsigned. -/
theorem toNat_lt_of_signed (w : BitVec 32) (h0 : IntOp.cmpi .sge w 0#32 = 1#1) (h1 : IntOp.cmpi .slt w 20000#32 = 1#1) :
    w.toNat < 20000 := by
  rw [IntOp.cmpi_sge] at h0
  rw [IntOp.cmpi_slt] at h1
  have z : (0#32 : BitVec 32).toInt = 0 := by decide
  have t : (20000#32 : BitVec 32).toInt = 20000 := by decide
  rw [z] at h0
  rw [t] at h1
  have hw := w.isLt
  rw [BitVec.toInt_eq_toNat_cond] at h0 h1
  split at h0 <;> omega

/-- ONE RANGE TEST: "all ids are ≥ 0 and < 20000, signed" puts every id below 20000 unsigned. -/
theorem inRange_of_all (ids : IVec S4096 32) (hb : S_.BroadcastsInDim S4096 (![] : Fin 0 → Fin S4096.rank))
    (hr : S4096.ReducesTo [0] S_) (h0 : 0 < S_.numel)
    (h : Host.reduce IntOp.andi
        (andi (cmpi .sge ids (broadcastInDim S4096 ![] hb (constantI S_ 32 0#32)))
              (cmpi .slt ids (broadcastInDim S4096 ![] hb (constantI S_ 32 20000#32))))
        (constantI S_ 1 1#1) hr h0 ix0 = 1#1) : Cert.Spec.InRange ids := by
  intro e
  have p := Host.reduce_andi_all _ _ hr h0 ix0 h (ix1 e)
  rw [andi_apply_eq_one] at p
  exact toNat_lt_of_signed _ p.1 p.2

/-- THE PRECONDITION DECODED: the two id vectors are in range and the three weight matrices are finite. -/
theorem of_pre [Cert.Pre_finite_inputs.Facts]
    (a0 a1 : IVec S4096 32) (a2 : FVec Ideal S4096x128 .f32) (a3 a4 a5 a6 : FVec Ideal S20000x128 .f32)
    (a7 : FVec Ideal S128x128 .f32) (a8 : FVec Ideal S128x256 .f32) (a9 : FVec Ideal S128 .f32)
    (a10 : FVec Ideal S128x256 .f32) (a11 : FVec Ideal S128 .f32) (a12 : FVec Ideal S1x128 .f32) (a13 : FVec Ideal S1 .f32)
    (h : Cert.Pre_finite_inputs.fn (F := Ideal) a0 a1 a2 a3 a4 a5 a6 a7 a8 a9 a10 a11 a12 a13 = fun _ => 1#1) :
    Cert.Spec.InRange a0 ∧ Cert.Spec.InRange a1 ∧ Cert.Spec.Finite a8 ∧ Cert.Spec.Finite a10 ∧ Cert.Spec.Finite a12 := by
  have e := congrFun h ix0
  dsimp only [fn, fn_part1, fn_part2, fn_part3, fn_part4] at e
  simp only [andi_apply_eq_one] at e
  obtain ⟨⟨⟨⟨⟨⟨⟨⟨⟨⟨⟨⟨⟨-, -⟩, -⟩, -⟩, -⟩, -⟩, h8⟩, -⟩, h10⟩, -⟩, h12⟩, -⟩, hi0⟩, hi1⟩ := e
  exact ⟨inRange_of_all a0 _ _ _ hi0, inRange_of_all a1 _ _ _ hi1,
    finite_of_all a8 _ _ _ h8, finite_of_all a10 _ _ _ h10, finite_of_all a12 _ _ _ h12⟩

end Cert.PreSide

end
-- ==== Proof.LibTakeRows.lean ====
/-
  Rows of a table taken by a column of row numbers, read at an entry.

  jnp's `table[idx]` for a rank-2 `table : [R, C]` and an integer vector `idx : [n]` lowers to a
  `stablehlo.gather` over the indices as a column `[n, 1]`: offset_dims `[1]`, collapsed_slice_dims `[0]`,
  start_index_map `[0]`, index_vector_dim 1, slice_sizes `[1, C]`. Result entry (e, k) is the table's entry
  (row, k), where row is the start index `idx[e, 0]` read as a signed integer and clamped into `[0, R − 1]`,
  as StableHLO's gather clamps every start index.
-/
import Idealize.ShloMosaic.Lib.ValueIdx

noncomputable section

namespace Idealize.ShloMosaic.TakeRows

open Idealize.ShloMosaic Idealize.ShloMosaic.ValueIdx

variable {α : Type}

/-- Those dimension numbers for a table `[R, C]`, start indices `[n, 1]` and a result `[n, C]`; their conditions
    `wf` are decided on a program's literal shapes. -/
abbrev rowDims (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER READ AT (e, k): the table at row `idx[e, 0]`, read signed and clamped into `[0, R − 1]`, column k. -/
theorem gather_rows_apply {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowDims R C n wf) x idx (ix2 e k)
      = x (ix2 ⟨min (idx (ix2 e ⟨0, Nat.one_pos⟩)).toInt.toNat (R - 1), by omega⟩ k) := by
  unfold Host.gather
  congr 1
  funext a
  refine Fin.ext ?_
  show (rowDims R C n wf).start (ix2 e k) idx a + (rowDims R C n wf).batchCoord (ix2 e k) a
    + (rowDims R C n wf).offCoord (ix2 e k) a = _
  have h0 : (rowDims R C n wf).start (ix2 e k) idx (0 : Fin 2) + (rowDims R C n wf).batchCoord (ix2 e k) (0 : Fin 2)
      + (rowDims R C n wf).offCoord (ix2 e k) (0 : Fin 2) = min (idx (ix2 e ⟨0, Nat.one_pos⟩)).toInt.toNat (R - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C n wf).startIndexMap from List.mem_singleton.mpr rfl)]
    have hsi : (rowDims R C n wf).siIdx (ix2 e k) ⟨List.idxOf (0 : Fin 2) (rowDims R C n wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : (rowDims R C n wf).start (ix2 e k) idx (1 : Fin 2) + (rowDims R C n wf).batchCoord (ix2 e k) (1 : Fin 2)
      + (rowDims R C n wf).offCoord (ix2 e k) (1 : Fin 2) = k.val := by
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl
  match a with
  | ⟨0, _⟩ => exact h0
  | ⟨1, _⟩ => exact h1

end Idealize.ShloMosaic.TakeRows

end
-- ==== Proof.RefSide.lean ====
/-
  The reference program, read index by index, is the all-columns arrangement `Spec.outR`.

  Ids that name a row are not negative as signed words, so each wrap-around select (id < 0 ? id + 20000 : id) keeps
  the id and each of the four gathers takes the rows `Spec.rowsOf` names.  The two concatenations along the last
  axis are [x_b ; kn_k] column by column (`Spec.cat`); the weights 2·max(−w, 0) + w are `Spec.pos`; each
  contraction is a sum over its 256 (or 128) columns, so a layer's pre-activation is `Spec.layer`; 1/(1 + exp(−x))
  is the logistic; the gate is `Spec.gateR`; and the two sums over the knowledge items, from a zero initial value,
  give the numerator and the denominator of `Spec.outR`.  One lemma per named intermediate, each read at an index
  built from literal coordinates.
-/
import proofs.«426876_j71004399337964_3_alg».proof.Proof.Gen.ReferenceIdeal.Read
import proofs.«426876_j71004399337964_3_alg».proof.Proof.Spec
import proofs.«426876_j71004399337964_3_alg».proof.Proof.LibTakeRows
import Idealize.ShloMosaic.Lib.StableHlo.Predicate

noncomputable section

open scoped BigOperators

namespace Cert.RefSide

open Idealize.ShloMosaic Idealize.ShloMosaic.ValueIdx Idealize.ShloMosaic.StableHlo
open Cert.ReferenceIdeal Cert.ReferenceIdeal.Gen Cert.ReferenceIdeal.Read Cert.Spec

/-! ## Constants and the two scalar facts -/

/-- The word of `1.0` denotes the real one. -/
theorem ofBits_one : Ideal.ofBits .f32 0x3F800000#32 = 1 := by
  simp [Ideal.ofBits, Ideal.ieee, -EReal.coe_mul]; norm_num

/-- The word of `2.0` denotes the real two. -/
theorem ofBits_two : Ideal.ofBits .f32 0x40000000#32 = ((2 : ℝ) : EReal) := by
  simp [Ideal.ofBits, Ideal.ieee, -EReal.coe_mul]; norm_num

/-- An id that names a row is not negative as a signed word, so the wrap-around select keeps it. -/
theorem pick_id (a y : BitVec 32) (ha : a.toNat < 20000) :
    Scalar.select (IntOp.cmpi .slt a 0#32) y a = a := by
  unfold Scalar.select
  rw [if_neg]
  intro h
  have := (StableHlo.Predicate.slt_iff_toNat (a := a) (b := 0#32) (by omega) (by decide)).mp h
  simp at this

/-- 1 / (1 + exp(−x)), both ones spelt as the word of `1.0`, is the logistic. -/
theorem logistic_form (x : EReal) :
    Ideal.div (Ideal.ofBits .f32 0x3F800000#32) (Ideal.ofBits .f32 0x3F800000#32 + Ideal.exp (-x)) = Ideal.logistic x := by
  rw [ofBits_one]; rfl

/-- 2·max(−w, 0) + w with the two and the zero spelt as words. -/
theorem pos_form (w : EReal) :
    Ideal.ofBits .f32 0x40000000#32 * max (-w) (Ideal.ofBits .f32 0x00000000#32) + w = pos w := by
  rw [ofBits_two, Ideal.ofBits_zero_f32]; rfl

/-! ## The ids after the wrap-around select, and the four gathers -/

abbrev Ids := IVec ⟨1, ![4096]⟩ 32

theorem ids_v4 (x0 : Ids) (h0 : InRange x0) (e : Fin 4096) : val_main_v4 (F := Ideal) x0 (ix1 e) = x0 (ix1 e) := by
  rw [val_main_v4_apply, val_main_v1_apply, val_main_v0_apply, val_main_c_apply]
  exact pick_id _ _ (h0 e)

theorem ids_v11 (x1 : Ids) (h1 : InRange x1) (e : Fin 4096) : val_main_v11 (F := Ideal) x1 (ix1 e) = x1 (ix1 e) := by
  rw [val_main_v11_apply, val_main_v8_apply, val_main_v7_apply, val_main_c_1_apply]
  exact pick_id _ _ (h1 e)

theorem ids_v18 (x0 : Ids) (h0 : InRange x0) (e : Fin 4096) : val_main_v18 (F := Ideal) x0 (ix1 e) = x0 (ix1 e) := by
  rw [val_main_v18_apply, val_main_v15_apply, val_main_v14_apply, val_main_c_3_apply]
  exact pick_id _ _ (h0 e)

theorem ids_v25 (x1 : Ids) (h1 : InRange x1) (e : Fin 4096) : val_main_v25 (F := Ideal) x1 (ix1 e) = x1 (ix1 e) := by
  rw [val_main_v25_apply, val_main_v22_apply, val_main_v21_apply, val_main_c_5_apply]
  exact pick_id _ _ (h1 e)

/-- The column [4096, 1] of start indices read at (e, 0) is entry e of the vector it was broadcast from. -/
theorem col_idx (e : Fin 4096) : idx_main_v5 (ix2 e (⟨0, Nat.one_pos⟩ : Fin 1)) = ix1 e :=
  funext fun a => by match a with | ⟨0, _⟩ => rfl

theorem start_v5 (x0 : Ids) (h0 : InRange x0) (e : Fin 4096) :
    val_main_v5 (F := Ideal) x0 (ix2 e ⟨0, Nat.one_pos⟩) = x0 (ix1 e) := by
  rw [val_main_v5_apply, col_idx, ids_v4 x0 h0]

theorem start_v12 (x1 : Ids) (h1 : InRange x1) (e : Fin 4096) :
    val_main_v12 (F := Ideal) x1 (ix2 e ⟨0, Nat.one_pos⟩) = x1 (ix1 e) := by
  rw [val_main_v12_apply]; exact (congrArg _ (col_idx e)).trans (ids_v11 x1 h1 e)

theorem start_v19 (x0 : Ids) (h0 : InRange x0) (e : Fin 4096) :
    val_main_v19 (F := Ideal) x0 (ix2 e ⟨0, Nat.one_pos⟩) = x0 (ix1 e) := by
  rw [val_main_v19_apply]; exact (congrArg _ (col_idx e)).trans (ids_v18 x0 h0 e)

theorem start_v26 (x1 : Ids) (h1 : InRange x1) (e : Fin 4096) :
    val_main_v26 (F := Ideal) x1 (ix2 e ⟨0, Nat.one_pos⟩) = x1 (ix1 e) := by
  rw [val_main_v26_apply]; exact (congrArg _ (col_idx e)).trans (ids_v25 x1 h1 e)

/-- The program's gather of whole rows, its start column being the ids themselves, is `rowsOf`. -/
theorem rows_of_start (ids : Ids) (tbl : M2 20000 128) (col : IVec ⟨2, ![4096, 1]⟩ 32)
    (hcol : ∀ e : Fin 4096, col (ix2 e ⟨0, Nat.one_pos⟩) = ids (ix1 e)) :
    Host.gather gather_S20000x128_S4096x1_S4096x128_1_0_n_n_0_1_1128 tbl col = rowsOf tbl ids := by
  funext j
  obtain ⟨e, k, rfl⟩ : ∃ (e : Fin 4096) (k : Fin 128), j = ix2 e k := ⟨j 0, j 1, eq_ix2 j⟩
  refine (TakeRows.gather_rows_apply (R := 20000) (C := 128) (n := 4096) (by decide)
    gather_S20000x128_S4096x1_S4096x128_1_0_n_n_0_1_1128_wf tbl col e k).trans ?_
  simp only [hcol e]
  rfl

theorem rows_v6 (x0 : Ids) (x3 : M2 20000 128) (h0 : InRange x0) : val_main_v6 (F := Ideal) x0 x3 = rowsOf x3 x0 :=
  rows_of_start x0 x3 _ (start_v5 x0 h0)

theorem rows_v13 (x1 : Ids) (x4 : M2 20000 128) (h1 : InRange x1) : val_main_v13 (F := Ideal) x1 x4 = rowsOf x4 x1 :=
  rows_of_start x1 x4 _ (start_v12 x1 h1)

theorem rows_v20 (x0 : Ids) (x5 : M2 20000 128) (h0 : InRange x0) : val_main_v20 (F := Ideal) x0 x5 = rowsOf x5 x0 :=
  rows_of_start x0 x5 _ (start_v19 x0 h0)

theorem rows_v27 (x1 : Ids) (x6 : M2 20000 128) (h1 : InRange x1) : val_main_v27 (F := Ideal) x1 x6 = rowsOf x6 x1 :=
  rows_of_start x1 x6 _ (start_v26 x1 h1)

/-! ## The concatenation [x_b ; kn_k] along the last axis -/

/-- A two-piece concatenation along the last axis whose first piece repeats row b of `x` over k and whose second
    repeats row k of `kn` over b, read at (b, k, d): column d of [x_b ; kn_k]. -/
theorem cat_apply (p q : FVec Ideal S4096x128x128 .f32) (x : M2 4096 128) (kn : M2 128 128)
    (hp : ∀ (b : Fin 4096) (k d : Fin 128), p (ix3 b k d) = x (ix2 b d))
    (hq : ∀ (b : Fin 4096) (k d : Fin 128), q (ix3 b k d) = kn (ix2 k d))
    (b : Fin 4096) (k : Fin 128) (d : Fin 256) :
    concatenate S4096x128x256 2 [⟨S4096x128x128, p⟩, ⟨S4096x128x128, q⟩]
      concatenates_S4096x128x128_S4096x128x128_S4096x128x256_d2 (ix3 b k d) = cat x kn b k d := by
  unfold cat
  by_cases h : d.val < 128
  · rw [dif_pos h, ← hp b k ⟨d.val, h⟩]
    exact concatenate_pair_apply_left (2 : Fin S4096x128x256.rank) p q _ (ix3 b k d) rfl (ix3 b k ⟨d.val, h⟩)
      (fun c => by match c with | ⟨0, _⟩ => rfl | ⟨1, _⟩ => rfl | ⟨2, _⟩ => rfl)
  · rw [dif_neg h, ← hq b k ⟨d.val - 128, by omega⟩]
    exact concatenate_pair_apply_right (2 : Fin S4096x128x256.rank) p q _ (ix3 b k d) rfl rfl (ix3 b k ⟨d.val - 128, by omega⟩)
      (fun c hc => by
        match c, hc with
        | ⟨0, _⟩, _ => rfl
        | ⟨1, _⟩, _ => rfl
        | ⟨2, _⟩, hc => exact absurd rfl hc)
      (by show d.val - 128 + 128 = d.val; omega)

theorem kn_v29 (x7 : M2 128 128) (b : Fin 4096) (k d : Fin 128) :
    val_main_v29 (F := Ideal) x7 (ix3 b k d) = x7 (ix2 k d) := by
  rw [val_main_v29_apply, val_main_v28_apply]
  exact congrArg x7 (funext fun a => by match a with | ⟨0, _⟩ => rfl | ⟨1, _⟩ => rfl)

theorem sv_v31 (x0 : Ids) (x5 : M2 20000 128) (h0 : InRange x0) (b : Fin 4096) (k d : Fin 128) :
    val_main_v31 (F := Ideal) x0 x5 (ix3 b k d) = rowsOf x5 x0 (ix2 b d) := by
  rw [val_main_v31_apply, val_main_v30_apply, rows_v20 x0 x5 h0]
  exact congrArg (rowsOf x5 x0) (funext fun a => by match a with | ⟨0, _⟩ => rfl | ⟨1, _⟩ => rfl)

theorem ev_v33 (x1 : Ids) (x6 : M2 20000 128) (h1 : InRange x1) (b : Fin 4096) (k d : Fin 128) :
    val_main_v33 (F := Ideal) x1 x6 (ix3 b k d) = rowsOf x6 x1 (ix2 b d) := by
  rw [val_main_v33_apply, val_main_v32_apply, rows_v27 x1 x6 h1]
  exact congrArg (rowsOf x6 x1) (funext fun a => by match a with | ⟨0, _⟩ => rfl | ⟨1, _⟩ => rfl)

theorem cat_v49 (x0 : Ids) (x5 : M2 20000 128) (x7 : M2 128 128) (h0 : InRange x0) (b : Fin 4096) (k : Fin 128) (d : Fin 256) :
    val_main_v49 (F := Ideal) x0 x5 x7 (ix3 b k d) = cat (rowsOf x5 x0) x7 b k d :=
  cat_apply _ _ _ _ (sv_v31 x0 x5 h0) (kn_v29 x7) b k d

theorem cat_v60 (x1 : Ids) (x6 : M2 20000 128) (x7 : M2 128 128) (h1 : InRange x1) (b : Fin 4096) (k : Fin 128) (d : Fin 256) :
    val_main_v60 (F := Ideal) x1 x6 x7 (ix3 b k d) = cat (rowsOf x6 x1) x7 b k d :=
  cat_apply _ _ _ _ (ev_v33 x1 x6 h1) (kn_v29 x7) b k d

/-! ## The positive weights 2·max(−w, 0) + w -/

theorem pos_v38 (x8 : M2 128 256) (i : S128x256.Idx) : val_main_v38 (F := Ideal) x8 i = pos (x8 i) := by
  rw [val_main_v38_apply, val_main_v37_apply, val_main_v36_apply, val_main_cst_apply, val_main_v35_apply,
    val_main_v34_apply, val_main_call0_v0_apply, val_main_call0_cst_apply]
  exact pos_form _

theorem pos_v43 (x10 : M2 128 256) (i : S128x256.Idx) : val_main_v43 (F := Ideal) x10 i = pos (x10 i) := by
  rw [val_main_v43_apply, val_main_v42_apply, val_main_v41_apply, val_main_cst_7_apply, val_main_v40_apply,
    val_main_v39_apply, val_main_call1_v0_apply, val_main_call1_cst_apply]
  exact pos_form _

theorem pos_v48 (x12 : M2 1 128) (i : S1x128.Idx) : val_main_v48 (F := Ideal) x12 i = pos (x12 i) := by
  rw [val_main_v48_apply, val_main_v47_apply, val_main_v46_apply, val_main_cst_8_apply, val_main_v45_apply,
    val_main_v44_apply, val_main_call2_v0_apply, val_main_call2_cst_apply]
  exact pos_form _

/-! ## The two layers on the concatenation, and their logistics -/

theorem layer_v53 (x0 : Ids) (x5 : M2 20000 128) (x7 : M2 128 128) (x8 : M2 128 256) (x9 : M1 128) (h0 : InRange x0)
    (b : Fin 4096) (k e : Fin 128) :
    val_main_v53 (F := Ideal) x0 x5 x7 x8 x9 (ix3 b k e) = layer (rowsOf x5 x0) x7 x8 x9 b k e := by
  rw [val_main_v53_apply, val_main_v50_apply, val_main_v52_apply, val_main_v51_apply]
  have hl : ∀ d : Fin 256, lidx_main_v50 (ix3 b k e) d = ix3 b k d := fun d =>
    funext fun a => by match a with | ⟨0, _⟩ => rfl | ⟨1, _⟩ => rfl | ⟨2, _⟩ => rfl
  have hr : ∀ d : Fin 256, ridx_main_v50 (ix3 b k e) d = ix2 e d := fun d =>
    funext fun a => by match a with | ⟨0, _⟩ => rfl | ⟨1, _⟩ => rfl
  have hb : idx_main_v51 (idx_main_v52 (ix3 b k e)) = ix1 e :=
    funext fun a => by match a with | ⟨0, _⟩ => rfl
  simp only [hl, hr, hb, cat_v49 x0 x5 x7 h0, pos_v38]
  rfl

theorem layer_v64 (x1 : Ids) (x6 : M2 20000 128) (x7 : M2 128 128) (x10 : M2 128 256) (x11 : M1 128) (h1 : InRange x1)
    (b : Fin 4096) (k e : Fin 128) :
    val_main_v64 (F := Ideal) x1 x6 x7 x10 x11 (ix3 b k e) = layer (rowsOf x6 x1) x7 x10 x11 b k e := by
  rw [val_main_v64_apply, val_main_v61_apply, val_main_v63_apply, val_main_v62_apply]
  have hl : ∀ d : Fin 256, lidx_main_v61 (ix3 b k e) d = ix3 b k d := fun d =>
    funext fun a => by match a with | ⟨0, _⟩ => rfl | ⟨1, _⟩ => rfl | ⟨2, _⟩ => rfl
  have hr : ∀ d : Fin 256, ridx_main_v61 (ix3 b k e) d = ix2 e d := fun d =>
    funext fun a => by match a with | ⟨0, _⟩ => rfl | ⟨1, _⟩ => rfl
  have hb : idx_main_v62 (idx_main_v63 (ix3 b k e)) = ix1 e :=
    funext fun a => by match a with | ⟨0, _⟩ => rfl
  simp only [hl, hr, hb, cat_v60 x1 x6 x7 h1, pos_v43]
  rfl

theorem pref_v59 (x0 : Ids) (x5 : M2 20000 128) (x7 : M2 128 128) (x8 : M2 128 256) (x9 : M1 128) (h0 : InRange x0)
    (b : Fin 4096) (k e : Fin 128) :
    val_main_v59 (F := Ideal) x0 x5 x7 x8 x9 (ix3 b k e) = Ideal.logistic (layer (rowsOf x5 x0) x7 x8 x9 b k e) := by
  rw [val_main_v59_apply, val_main_v58_apply, val_main_cst_10_apply, val_main_v57_apply, val_main_v56_apply,
    val_main_cst_9_apply, val_main_v55_apply, val_main_v54_apply, layer_v53 x0 x5 x7 x8 x9 h0]
  exact logistic_form _

theorem diff_v70 (x1 : Ids) (x6 : M2 20000 128) (x7 : M2 128 128) (x10 : M2 128 256) (x11 : M1 128) (h1 : InRange x1)
    (b : Fin 4096) (k e : Fin 128) :
    val_main_v70 (F := Ideal) x1 x6 x7 x10 x11 (ix3 b k e) = Ideal.logistic (layer (rowsOf x6 x1) x7 x10 x11 b k e) := by
  rw [val_main_v70_apply, val_main_v69_apply, val_main_cst_12_apply, val_main_v68_apply, val_main_v67_apply,
    val_main_cst_11_apply, val_main_v66_apply, val_main_v65_apply, layer_v64 x1 x6 x7 x10 x11 h1]
  exact logistic_form _

/-! ## The per-sample factor, the product, the third layer and the gate -/

theorem disc_v77 (x0 x1 : Ids) (x3 x4 : M2 20000 128) (h0 : InRange x0) (h1 : InRange x1) (b : Fin 4096) (d : Fin 128) :
    val_main_v77 (F := Ideal) x0 x1 x3 x4 (ix2 b d)
      = Ideal.logistic (rowsOf x3 x0 (ix2 b d) * rowsOf x4 x1 (ix2 b d)) := by
  rw [val_main_v77_apply, val_main_v76_apply, val_main_cst_14_apply, val_main_v75_apply, val_main_v74_apply,
    val_main_cst_13_apply, val_main_v73_apply, val_main_v72_apply, val_main_v71_apply, rows_v6 x0 x3 h0, rows_v13 x1 x4 h1]
  exact logistic_form _

theorem prod_v81 (x0 x1 : Ids) (x3 x4 x5 x6 : M2 20000 128) (x7 : M2 128 128) (x8 : M2 128 256) (x9 : M1 128)
    (x10 : M2 128 256) (x11 : M1 128) (h0 : InRange x0) (h1 : InRange x1) (b : Fin 4096) (k d : Fin 128) :
    val_main_v81 (F := Ideal) x0 x1 x3 x4 x5 x6 x7 x8 x9 x10 x11 (ix3 b k d)
      = (Ideal.logistic (layer (rowsOf x5 x0) x7 x8 x9 b k d) - Ideal.logistic (layer (rowsOf x6 x1) x7 x10 x11 b k d))
        * Ideal.logistic (rowsOf x3 x0 (ix2 b d) * rowsOf x4 x1 (ix2 b d)) := by
  rw [val_main_v81_apply, val_main_v78_apply, val_main_v80_apply, val_main_v79_apply,
    pref_v59 x0 x5 x7 x8 x9 h0, diff_v70 x1 x6 x7 x10 x11 h1]
  have hi : idx_main_v79 (idx_main_v80 (ix3 b k d)) = ix2 b d :=
    funext fun a => by match a with | ⟨0, _⟩ => rfl | ⟨1, _⟩ => rfl
  rw [hi, disc_v77 x0 x1 x3 x4 h0 h1]
  rfl

/-- The gate of (b, k): the logistic of the third layer on the product. -/
theorem gate_v91 (x0 x1 : Ids) (x2 : M2 4096 128) (x3 x4 x5 x6 : M2 20000 128) (x7 : M2 128 128) (x8 : M2 128 256) (x9 : M1 128)
    (x10 : M2 128 256) (x11 : M1 128) (x12 : M2 1 128) (x13 : M1 1) (h0 : InRange x0) (h1 : InRange x1)
    (b : Fin 4096) (k : Fin 128) :
    val_main_v91 (F := Ideal) x0 x1 x3 x4 x5 x6 x7 x8 x9 x10 x11 x12 x13 (ix3 b k (⟨0, Nat.one_pos⟩ : Fin 1))
      = gateR (tabs x0 x1 x2 x3 x4 x5 x6 x7 x8 x9 x10 x11 x12 x13) b k := by
  rw [val_main_v91_apply, val_main_v90_apply, val_main_cst_16_apply, val_main_v89_apply, val_main_v88_apply,
    val_main_cst_15_apply, val_main_v87_apply, val_main_v86_apply, val_main_v85_apply, val_main_v82_apply,
    val_main_v84_apply, val_main_v83_apply]
  have hl : ∀ d : Fin 128, lidx_main_v82 (ix3 b k (⟨0, Nat.one_pos⟩ : Fin 1)) d = ix3 b k d := fun d =>
    funext fun a => by match a with | ⟨0, _⟩ => rfl | ⟨1, _⟩ => rfl | ⟨2, _⟩ => rfl
  have hr : ∀ d : Fin 128, ridx_main_v82 (ix3 b k (⟨0, Nat.one_pos⟩ : Fin 1)) d = ix2 (⟨0, Nat.one_pos⟩ : Fin 1) d := fun d =>
    funext fun a => by match a with | ⟨0, _⟩ => rfl | ⟨1, _⟩ => rfl
  have hb : idx_main_v83 (idx_main_v84 (ix3 b k (⟨0, Nat.one_pos⟩ : Fin 1))) = ix1 (⟨0, Nat.one_pos⟩ : Fin 1) :=
    funext fun a => by match a with | ⟨0, _⟩ => rfl
  simp only [hl, hr, hb, prod_v81 x0 x1 x3 x4 x5 x6 x7 x8 x9 x10 x11 h0 h1, pos_v48]
  exact logistic_form _

/-! ## The two reduces, the quotient, and the result -/

theorem num_v94 (x0 x1 : Ids) (x2 : M2 4096 128) (x3 x4 x5 x6 : M2 20000 128) (x7 : M2 128 128) (x8 : M2 128 256) (x9 : M1 128)
    (x10 : M2 128 256) (x11 : M1 128) (x12 : M2 1 128) (x13 : M1 1) (h0 : InRange x0) (h1 : InRange x1) (b : Fin 4096) :
    val_main_v94 (F := Ideal) x0 x1 x2 x3 x4 x5 x6 x7 x8 x9 x10 x11 x12 x13 (ix2 b (⟨0, Nat.one_pos⟩ : Fin 1))
      = 0 + ∑ k : Fin 128, gateR (tabs x0 x1 x2 x3 x4 x5 x6 x7 x8 x9 x10 x11 x12 x13) b k * x2 (ix2 b k) := by
  rw [val_main_v94_apply, val_main_cst_17_apply]
  have hi : ∀ k : Fin 128, idx_main_v94 (ix2 b (⟨0, Nat.one_pos⟩ : Fin 1)) k = ix3 b k (⟨0, Nat.one_pos⟩ : Fin 1) := fun k =>
    funext fun a => by match a with | ⟨0, _⟩ => rfl | ⟨1, _⟩ => rfl | ⟨2, _⟩ => rfl
  have hk : ∀ k : Fin 128, idx_main_v92 (ix3 b k (⟨0, Nat.one_pos⟩ : Fin 1)) = ix2 b k := fun k =>
    funext fun a => by match a with | ⟨0, _⟩ => rfl | ⟨1, _⟩ => rfl
  simp only [hi, val_main_v93_apply, val_main_v92_apply, hk,
    gate_v91 x0 x1 x2 x3 x4 x5 x6 x7 x8 x9 x10 x11 x12 x13 h0 h1, Ideal.ofBits_def, Ideal.ofBits_zero_f32, Ideal.mulf_def]

theorem den_v95 (x2 : M2 4096 128) (b : Fin 4096) :
    val_main_v95 (F := Ideal) x2 (ix1 b) = 0 + ∑ k : Fin 128, x2 (ix2 b k) := by
  rw [val_main_v95_apply, val_main_cst_18_apply]
  have hi : ∀ k : Fin 128, idx_main_v95 (ix1 b) k = ix2 b k := fun k =>
    funext fun a => by match a with | ⟨0, _⟩ => rfl | ⟨1, _⟩ => rfl
  simp only [hi, Ideal.ofBits_def, Ideal.ofBits_zero_f32]

/-- THE REFERENCE'S RESULT, index by index: the kq-weighted sum of the gates over the sum of kq's row. -/
theorem result_eq (x0 : (⟨S4096, .i32⟩ : BufTy).Contents (Elt Ideal)) (x1 : (⟨S4096, .i32⟩ : BufTy).Contents (Elt Ideal))
    (x2 : (⟨S4096x128, .f32⟩ : BufTy).Contents (Elt Ideal)) (x3 : (⟨S20000x128, .f32⟩ : BufTy).Contents (Elt Ideal))
    (x4 : (⟨S20000x128, .f32⟩ : BufTy).Contents (Elt Ideal)) (x5 : (⟨S20000x128, .f32⟩ : BufTy).Contents (Elt Ideal))
    (x6 : (⟨S20000x128, .f32⟩ : BufTy).Contents (Elt Ideal)) (x7 : (⟨S128x128, .f32⟩ : BufTy).Contents (Elt Ideal))
    (x8 : (⟨S128x256, .f32⟩ : BufTy).Contents (Elt Ideal)) (x9 : (⟨S128, .f32⟩ : BufTy).Contents (Elt Ideal))
    (x10 : (⟨S128x256, .f32⟩ : BufTy).Contents (Elt Ideal)) (x11 : (⟨S128, .f32⟩ : BufTy).Contents (Elt Ideal))
    (x12 : (⟨S1x128, .f32⟩ : BufTy).Contents (Elt Ideal)) (x13 : (⟨S1, .f32⟩ : BufTy).Contents (Elt Ideal))
    (h0 : Cert.Spec.InRange x0) (h1 : Cert.Spec.InRange x1) :
    val_main_v98 (F := Ideal) x0 x1 x2 x3 x4 x5 x6 x7 x8 x9 x10 x11 x12 x13
      = fun i => Cert.Spec.outR (Cert.Spec.tabs x0 x1 x2 x3 x4 x5 x6 x7 x8 x9 x10 x11 x12 x13) (i 0) := by
  funext i
  obtain ⟨b, rfl⟩ : ∃ b : Fin 4096, i = ix1 b := ⟨i 0, eq_ix1 i⟩
  rw [val_main_v98_apply, val_main_v97_apply, val_main_v96_apply]
  have hi : idx_main_v98 (ix1 b) = ix2 b (⟨0, Nat.one_pos⟩ : Fin 1) :=
    funext fun a => by
      match a with
      | ⟨0, _⟩ => exact Fin.ext (Nat.div_one _)
      | ⟨1, _⟩ => rfl
  have hj : idx_main_v96 (ix2 b (⟨0, Nat.one_pos⟩ : Fin 1)) = ix1 b :=
    funext fun a => by match a with | ⟨0, _⟩ => rfl
  rw [hi, hj, num_v94 x0 x1 x2 x3 x4 x5 x6 x7 x8 x9 x10 x11 x12 x13 h0 h1, den_v95]
  rfl

end Cert.RefSide

end
-- ==== Proof.LibPlainDot.lean ====
/-
  A plain matrix product read at an entry, at the ideal values.

  For the dimension numbers of an M×K by K×N product (contract the left operand's second axis with the right
  operand's first, no batch axes), a `tpu.matmul` into the zero accumulator and the host's `dot_general` are, at
  the entry (r, c), the sum over k of left (r, k) times right (k, c) on the extended reals.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's index at output entry `j` and contraction index `q`: row of `j`, column `q`. -/
theorem lhsIdx_eq (j : (⟨2, ![M, N]⟩ : Shape).Idx) (k : Fin K) :
    (DotDims.plain M K N).lhsIdx j ((contrEquiv1 (DotDims.plain M K N) K rfl rfl).symm k)
      = ix2 ⟨(j 0).val, idx2_lt0 j⟩ k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index there: row `q`, column of `j`. -/
theorem rhsIdx_eq (j : (⟨2, ![M, N]⟩ : Shape).Idx) (k : Fin K) :
    (DotDims.plain M K N).rhsIdx j ((contrEquiv1 (DotDims.plain M K N) K rfl rfl).symm k)
      = ix2 k ⟨(j 1).val, idx2_lt1 j⟩ := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A `tpu.matmul` of these dimension numbers into the zero splat, at entry (r, c): `∑ k, lhs (r, k) * rhs (k, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's `dot_general` of these dimension numbers at entry (r, c): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.HostSide.lean ====
/-
  The arrays the kernel program's region finds, as values of the program's arguments, read at an index.

  Before its one region the program (i) takes rows of four embedding tables by two id vectors — each take wraps a
  negative id by the table's length, gathers whole rows with the start index clamped into the table, and writes a
  not-a-number row where the wrapped id falls outside the table; (ii) forms |W| for the three weights, cuts each of the
  first two into its sample half and its knowledge half, transposes the halves, and multiplies the knowledge table into
  the knowledge halves, adding the bias along every row; (iii) transposes the knowledge mask and sums each of its rows.
  With every id inside the table the wrap keeps the id, the range test holds on every row, and each take is the rows
  the ids name.
-/
import proofs.«426876_j71004399337964_3_alg».proof.Proof.Gen.KernelIdeal.Frame
import proofs.«426876_j71004399337964_3_alg».proof.Proof.Spec
import proofs.«426876_j71004399337964_3_alg».proof.Proof.LibTakeRows
import proofs.«426876_j71004399337964_3_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

set_option maxRecDepth 16384

noncomputable section

open scoped BigOperators

namespace Cert.KernelIdeal.HostSide

open Idealize.ShloMosaic Idealize.ShloMosaic.ValueIdx Idealize.ShloMosaic.TcCoe Idealize.ShloMosaic.Tactic
open Cert.KernelIdeal

/-! ## Words: an id inside the table, compared as a signed word -/

/-- An id below 20000 is not negative. -/
theorem slt_zero_bit {x : BitVec 32} (h : x.toNat < 20000) : IntOp.cmpi .slt x 0#32 = 0#1 := by
  refine eq_zero_of_ne_one fun h1 => ?_
  have h2 := (StableHlo.Predicate.slt_iff_toNat (a := x) (b := 0#32) (by omega) (by decide)).1 h1
  have h0 : (0#32 : BitVec 32).toNat = 0 := rfl
  omega

/-- An id below 20000 is at least zero. -/
theorem sge_zero_bit {x : BitVec 32} (h : x.toNat < 20000) : IntOp.cmpi .sge x 0#32 = 1#1 := by
  refine (StableHlo.Predicate.sge_iff_toNat (a := x) (b := 0#32) (by omega) (by decide)).2 ?_
  have h0 : (0#32 : BitVec 32).toNat = 0 := rfl
  omega

/-- An id below 20000 is at most 19999. -/
theorem sle_last_bit {x : BitVec 32} (h : x.toNat < 20000) : IntOp.cmpi .sle x 19999#32 = 1#1 := by
  refine (StableHlo.Predicate.sle_iff_toNat (a := x) (b := 19999#32) (by omega) (by decide)).2 ?_
  have h0 : (19999#32 : BitVec 32).toNat = 19999 := rfl
  omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from rfl]
    exact foldl_andi_one f l fun n hn => h n (List.mem_cons_of_mem _ hn)

/-- A reduction by `and` from the constant 1 of an array that is 1 everywhere is 1 everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-! ## One take: rows of a table by an id vector -/

/-- The id vector as a column, each negative id moved up by the table's length. -/
def wrapped (ids : IVec S4096 32) : IVec S4096x1 32 :=
  broadcastInDim S4096x1 ![0] Gen.bcast_S4096_S4096x1_0
    (select (cmpi .slt ids (broadcastInDim S4096 ![] Gen.bcast_S_S4096 (constantI S_ 32 0#32)))
      (addi ids (broadcastInDim S4096 ![] Gen.bcast_S_S4096 (constantI S_ 32 20000#32))) ids)

/-- The take as the program composes it: the gathered rows where the wrapped id is inside the table, a not-a-number
    row elsewhere. -/
def takeTerm (tbl : Spec.M2 20000 128) (ids : IVec S4096 32) : Spec.M2 4096 128 :=
  select
    (broadcastInDim S4096x128 ![0] Gen.bcast_S4096_S4096x128_0
      (Host.reduce IntOp.andi
        (andi (cmpi .sge (wrapped ids) (broadcastInDim S4096x1 ![] Gen.bcast_S_S4096x1 (constantI S_ 32 0#32)))
          (cmpi .sle (wrapped ids) (broadcastInDim S4096x1 ![0, 1] Gen.bcast_S1x1_S4096x1_0_1
            (broadcastInDim S1x1 ![1] Gen.bcast_S1_S1x1_1 (constantI S1 32 19999#32)))))
        (constantI S_ 1 1#1) Gen.reducesTo_S4096x1_S4096_d1 Gen.h_S_))
    (Host.gather gather_S20000x128_S4096x1_S4096x128_1_0_n_n_0_1_1128 tbl (wrapped ids))
    (broadcastInDim S4096x128 ![] Gen.bcast_S_S4096x128 (constant (F := Ideal) S_ .f32 0x7FC00000#32))

/-- An id inside the table is its own wrap. -/
theorem wrapped_apply (ids : IVec S4096 32) (e : Fin 4096) (z : Fin 1) (h : (ids (ix1 e)).toNat < 20000) :
    wrapped ids (ix2 e z) = ids (ix1 e) := by
  unfold wrapped
  rw [broadcastInDim_apply _ _ _ (ix2 e z) (ix1 e) (fun a => match a with
    | ⟨0, _⟩ => by
      show e.val = if (4096 : Nat) = 1 then 0 else e.val
      rw [if_neg (by decide)])]
  rw [select_apply]
  show Scalar.select (IntOp.cmpi .slt (ids (ix1 e)) 0#32) _ _ = _
  rw [slt_zero_bit h, select_zero]

/-- THE TAKE AT (e, k), every id inside the table: the table's row numbered by the `e`-th id, column k. -/
theorem takeTerm_apply (tbl : Spec.M2 20000 128) (ids : IVec S4096 32) (h : Spec.InRange ids) (e : Fin 4096) (k : Fin 128) :
    takeTerm tbl ids (ix2 e k) = Spec.rowsOf tbl ids (ix2 e k) := by
  unfold takeTerm
  rw [select_apply]
  have hbit : broadcastInDim S4096x128 ![0] Gen.bcast_S4096_S4096x128_0
      (Host.reduce IntOp.andi
        (andi (cmpi .sge (wrapped ids) (broadcastInDim S4096x1 ![] Gen.bcast_S_S4096x1 (constantI S_ 32 0#32)))
          (cmpi .sle (wrapped ids) (broadcastInDim S4096x1 ![0, 1] Gen.bcast_S1x1_S4096x1_0_1
            (broadcastInDim S1x1 ![1] Gen.bcast_S1_S1x1_1 (constantI S1 32 19999#32)))))
        (constantI S_ 1 1#1) Gen.reducesTo_S4096x1_S4096_d1 Gen.h_S_) (ix2 e k) = 1#1 := by
    rw [broadcastInDim_apply _ _ _ (ix2 e k) (ix1 e) (fun a => match a with
      | ⟨0, _⟩ => by
        show e.val = if (4096 : Nat) = 1 then 0 else e.val
        rw [if_neg (by decide)])]
    refine reduce_andi_one _ _ _ _ _ rfl fun i => ?_
    obtain ⟨r, z, rfl⟩ : ∃ (r : Fin 4096) (z : Fin 1), i = ix2 r z := ⟨i 0, i 1, eq_ix2 i⟩
    show IntOp.andi (IntOp.cmpi .sge (wrapped ids (ix2 r z)) 0#32) (IntOp.cmpi .sle (wrapped ids (ix2 r z)) 19999#32) = 1#1
    rw [wrapped_apply ids r z (h r), sge_zero_bit (h r), sle_last_bit (h r)]
    rfl
  rw [hbit, select_one]
  show Host.gather (TakeRows.rowDims 20000 128 4096 Gen.gather_S20000x128_S4096x1_S4096x128_1_0_n_n_0_1_1128_wf) tbl (wrapped ids) (ix2 e k) = _
  rw [TakeRows.gather_rows_apply (by decide) _ tbl (wrapped ids) e k]
  show _ = tbl (ix2 ⟨min (ids (ix1 e)).toInt.toNat (20000 - 1), by omega⟩ k)
  refine congrArg tbl (congrArg (fun r => ix2 r k) (Fin.ext ?_))
  show min (wrapped ids (ix2 e ⟨0, Nat.one_pos⟩)).toInt.toNat (20000 - 1) = min (ids (ix1 e)).toInt.toNat (20000 - 1)
  rw [wrapped_apply ids e _ (h e)]

/-- The take, every id inside the table, is the rows the ids name. -/
theorem takeTerm_eq (tbl : Spec.M2 20000 128) (ids : IVec S4096 32) (h : Spec.InRange ids) :
    takeTerm tbl ids = Spec.rowsOf tbl ids := by
  funext j
  rw [eq_ix2 j]
  exact takeTerm_apply tbl ids h (j 0) (j 1)

/-! ## The weights: |W|, a half of it, transposed -/

/-- The sample half of |W|, transposed, as the region's bf16 operand. -/
def absLoT (W : Spec.M2 128 256) : FVec Ideal S128x128 .bf16 :=
  truncf .bf16 (transpose S128x128 [1, 0]
    (extractStridedSlice S128x128 ![0, 0] (Host.absf W) Gen.slices_S128x256_S128x128_0_0)
    Gen.transposes_S128x128_S128x128_1_0) Gen.bitsLt_bf16_f32

/-- The knowledge half of |W|, transposed. -/
def absHiT (W : Spec.M2 128 256) : Spec.M2 128 128 :=
  transpose S128x128 [1, 0]
    (extractStridedSlice S128x128 ![0, 128] (Host.absf W) Gen.slices_S128x256_S128x128_0_128)
    Gen.transposes_S128x128_S128x128_1_0

/-- The knowledge half of a layer as the program forms it: the knowledge table times the transposed knowledge half of
    |W|, the bias added along every row. -/
def knowHalf (kn : Spec.M2 128 128) (W : Spec.M2 128 256) (b : Spec.M1 128) : Spec.M2 128 128 :=
  addf (Host.dotGeneral dot_S128x128_S128x128_S128x128_1_0_0_1_n_n none kn (absHiT W))
    (broadcastInDim S128x128 ![0, 1] Gen.bcast_S1x128_S128x128_0_1
      (broadcastInDim S1x128 ![1] Gen.bcast_S128_S1x128_1 b))

/-- At (d, e) the transposed sample half reads |W (e, d)|: narrowing to bf16 changes no extended real. -/
theorem absLoT_apply (W : Spec.M2 128 256) (d e : Fin 128) :
    absLoT W (ix2 d e) = Spec.mag (W (ix2 e (Spec.lo d))) := by
  unfold absLoT
  rw [truncf_apply, transpose_ix2_apply]
  refine (extractStridedSlice_apply _ _ _ (ix2 e d) (ix2 e (Spec.lo d)) (fun a => match a with
    | ⟨0, _⟩ => by show e.val = 0 + e.val; omega
    | ⟨1, _⟩ => by show d.val = 0 + d.val; omega)).trans ?_
  rfl

/-- At (d, e) the transposed knowledge half reads |W (e, 128 + d)|. -/
theorem absHiT_apply (W : Spec.M2 128 256) (d e : Fin 128) :
    absHiT W (ix2 d e) = Spec.mag (W (ix2 e (Spec.hi d))) := by
  unfold absHiT
  rw [transpose_ix2_apply]
  refine (extractStridedSlice_apply _ _ _ (ix2 e d) (ix2 e (Spec.hi d)) (fun a => match a with
    | ⟨0, _⟩ => by show e.val = 0 + e.val; omega
    | ⟨1, _⟩ => by show 128 + d.val = 128 + d.val; rfl)).trans ?_
  rfl

/-- A bias laid along every row reads, at (k, e), the bias at e. -/
theorem biasRows_apply (b : Spec.M1 128) (k e : Fin 128) :
    broadcastInDim S128x128 ![0, 1] Gen.bcast_S1x128_S128x128_0_1
        (broadcastInDim S1x128 ![1] Gen.bcast_S128_S1x128_1 b) (ix2 k e) = b (ix1 e) := by
  rw [broadcastInDim_apply _ _ _ (ix2 k e) (ix2 (0 : Fin 1) e) (fun a => match a with
    | ⟨0, _⟩ => by
      show (0 : Nat) = if (1 : Nat) = 1 then 0 else k.val
      rw [if_pos rfl]
    | ⟨1, _⟩ => by
      show e.val = if (128 : Nat) = 1 then 0 else e.val
      rw [if_neg (by decide)])]
  rw [broadcastInDim_apply _ _ _ (ix2 (0 : Fin 1) e) (ix1 e) (fun a => match a with
    | ⟨0, _⟩ => by
      show e.val = if (128 : Nat) = 1 then 0 else e.val
      rw [if_neg (by decide)])]

/-- The knowledge half of a layer at (k, e): the sum over the knowledge columns, plus the bias. -/
theorem knowHalf_apply (kn : Spec.M2 128 128) (W : Spec.M2 128 256) (b : Spec.M1 128) (k e : Fin 128) :
    knowHalf kn W b (ix2 k e) = Spec.actK kn W b k e := by
  unfold knowHalf Spec.actK
  rw [addf_apply, biasRows_apply]
  congr 1
  show FloatOps.dotGeneral (DotDims.plain 128 128 128) none .single kn (absHiT W) (ix2 k e) = _
  rw [PlainDot.dotGeneral_apply]
  exact Finset.sum_congr rfl fun d _ => by rw [absHiT_apply]

/-! ## The knowledge mask: transposed, and its row sums -/

/-- The mask transposed. -/
def maskT (kq : Spec.M2 4096 128) : Spec.M2 128 4096 :=
  transpose S128x4096 [1, 0] kq Gen.transposes_S4096x128_S128x4096_1_0

/-- The mask's row sums from zero, laid as one row. -/
def rowSums (kq : Spec.M2 4096 128) : Spec.M2 1 4096 :=
  broadcastInDim S1x4096 ![1] Gen.bcast_S4096_S1x4096_1
    (Host.reduceAdd kq (constant (F := Ideal) S_ .f32 0x00000000#32) Gen.reducesTo_S4096x128_S4096_d1 Gen.h_S_)

/-- At (p, q) the transposed mask reads the mask at (q, p). -/
theorem maskT_apply (kq : Spec.M2 4096 128) (p : Fin 128) (q : Fin 4096) : maskT kq (ix2 p q) = kq (ix2 q p) :=
  transpose_ix2_apply kq _ p q

/-- At (0, q): zero plus the sum of the mask's row q. -/
theorem rowSums_apply (kq : Spec.M2 4096 128) (q : Fin 4096) :
    rowSums kq (ix2 (0 : Fin 1) q) = 0 + ∑ k : Fin 128, kq (ix2 q k) := by
  unfold rowSums
  rw [broadcastInDim_apply _ _ _ (ix2 (0 : Fin 1) q) (ix1 q) (fun a => match a with
    | ⟨0, _⟩ => by
      show q.val = if (4096 : Nat) = 1 then 0 else q.val
      rw [if_neg (by decide)])]
  rw [hostReduceAdd_apply,
    Ideal.hostReduceAdd_single Gen.reducesTo_S4096x128_S4096_d1 (by decide : S4096x128.Reduces [1] S4096)]
  rw [show constant (F := Ideal) S_ .f32 0x00000000#32 (Shape.Idx.first Gen.h_S_) = (0 : EReal) from Ideal.ofBits_zero_f32]
  congr 1
  refine Finset.sum_congr rfl fun k _ => congrArg kq (funext fun a => Fin.ext ?_)
  rw [Shape.Reduces.lift_val]
  match a with
  | ⟨0, _⟩ => rfl
  | ⟨1, _⟩ => rfl

/-! ## The arrays the region finds, as the operations' terms

Each array the operations before the region write is, by running those operations on the launch contents, the
composed term of its operations over the argument arrays. -/

variable (m : (ℓ : Loc nD τ sig) → Buf (Elt Ideal) ℓ) (c : Dev nD)

/-- The program's arguments on core `c`, as launched. -/
abbrev a0 : IVec S4096 32 := m ((c.tc : Thread nD τ).loc main_arg0)
abbrev a1 : IVec S4096 32 := m ((c.tc : Thread nD τ).loc main_arg1)
abbrev a2 : Spec.M2 4096 128 := m ((c.tc : Thread nD τ).loc main_arg2)
abbrev a3 : Spec.M2 20000 128 := m ((c.tc : Thread nD τ).loc main_arg3)
abbrev a4 : Spec.M2 20000 128 := m ((c.tc : Thread nD τ).loc main_arg4)
abbrev a5 : Spec.M2 20000 128 := m ((c.tc : Thread nD τ).loc main_arg5)
abbrev a6 : Spec.M2 20000 128 := m ((c.tc : Thread nD τ).loc main_arg6)
abbrev a7 : Spec.M2 128 128 := m ((c.tc : Thread nD τ).loc main_arg7)
abbrev a8 : Spec.M2 128 256 := m ((c.tc : Thread nD τ).loc main_arg8)
abbrev a9 : Spec.M1 128 := m ((c.tc : Thread nD τ).loc main_arg9)
abbrev a10 : Spec.M2 128 256 := m ((c.tc : Thread nD τ).loc main_arg10)
abbrev a11 : Spec.M1 128 := m ((c.tc : Thread nD τ).loc main_arg11)
abbrev a12 : Spec.M2 1 128 := m ((c.tc : Thread nD τ).loc main_arg12)
abbrev a13 : Spec.M1 1 := m ((c.tc : Thread nD τ).loc main_arg13)

set_option maxHeartbeats 1000000 in
theorem v0_term : (Gen.V m c main_v0 : S4096x128.Idx → EReal) = takeTerm (a3 m c) (a0 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 1000000 in
theorem v1_term : (Gen.V m c main_v1 : S4096x128.Idx → EReal) = takeTerm (a4 m c) (a1 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 1000000 in
theorem v2_term : (Gen.V m c main_v2 : S4096x128.Idx → EReal) = takeTerm (a5 m c) (a0 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 1000000 in
theorem v3_term : (Gen.V m c main_v3 : S4096x128.Idx → EReal) = takeTerm (a6 m c) (a1 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 1000000 in
theorem v6_term : (Gen.V m c main_v6 : S1x128.Idx → EReal) = Host.absf (a12 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 1000000 in
theorem v12_term : (Gen.V m c main_v12 : S128x128.Idx → EReal) = absLoT (a8 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 1000000 in
theorem v14_term : (Gen.V m c main_v14 : S128x128.Idx → EReal) = absLoT (a10 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 1000000 in
theorem v19_term : (Gen.V m c main_v19 : S128x128.Idx → EReal) = knowHalf (a7 m c) (a8 m c) (a9 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 1000000 in
theorem v24_term : (Gen.V m c main_v24 : S128x128.Idx → EReal) = knowHalf (a7 m c) (a10 m c) (a11 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 1000000 in
theorem v25_term : (Gen.V m c main_v25 : S128x4096.Idx → EReal) = maskT (a2 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxHeartbeats 1000000 in
theorem v27_term : (Gen.V m c main_v27 : S1x4096.Idx → EReal) = rowSums (a2 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

/-! ## The eleven facts -/

/-- With every id of the first id vector inside the table, the first take is the rows of the fourth argument those
    ids name; likewise the other three takes, of the fifth, sixth and seventh arguments by the first or the second id
    vector. -/
theorem stu_q (h : Spec.InRange (a0 m c)) :
    (Gen.V m c main_v0 : S4096x128.Idx → EReal) = Spec.rowsOf (a3 m c) (a0 m c) :=
  (v0_term m c).trans (takeTerm_eq _ _ h)

theorem exer_k (h : Spec.InRange (a1 m c)) :
    (Gen.V m c main_v1 : S4096x128.Idx → EReal) = Spec.rowsOf (a4 m c) (a1 m c) :=
  (v1_term m c).trans (takeTerm_eq _ _ h)

theorem stu_v (h : Spec.InRange (a0 m c)) :
    (Gen.V m c main_v2 : S4096x128.Idx → EReal) = Spec.rowsOf (a5 m c) (a0 m c) :=
  (v2_term m c).trans (takeTerm_eq _ _ h)

theorem exer_v (h : Spec.InRange (a1 m c)) :
    (Gen.V m c main_v3 : S4096x128.Idx → EReal) = Spec.rowsOf (a6 m c) (a1 m c) :=
  (v3_term m c).trans (takeTerm_eq _ _ h)

/-- The transposed mask at (p, q) is the mask at (q, p). -/
theorem kqT (p : Fin 128) (q : Fin 4096) :
    (Gen.V m c main_v25 : S128x4096.Idx → EReal) (ix2 p q) = a2 m c (ix2 q p) :=
  (congrFun (v25_term m c) (ix2 p q)).trans (maskT_apply _ p q)

/-- The row of counts at (0, q) is zero plus the sum of the mask's row q. -/
theorem count (q : Fin 4096) :
    (Gen.V m c main_v27 : S1x4096.Idx → EReal) (ix2 (0 : Fin 1) q) = 0 + ∑ k : Fin 128, a2 m c (ix2 q k) :=
  (congrFun (v27_term m c) (ix2 (0 : Fin 1) q)).trans (rowSums_apply _ q)

/-- The first layer's knowledge half at (k, e). -/
theorem B1 (k e : Fin 128) :
    (Gen.V m c main_v19 : S128x128.Idx → EReal) (ix2 k e) = Spec.actK (a7 m c) (a8 m c) (a9 m c) k e :=
  (congrFun (v19_term m c) (ix2 k e)).trans (knowHalf_apply _ _ _ k e)

/-- The second layer's knowledge half at (k, e). -/
theorem B2 (k e : Fin 128) :
    (Gen.V m c main_v24 : S128x128.Idx → EReal) (ix2 k e) = Spec.actK (a7 m c) (a10 m c) (a11 m c) k e :=
  (congrFun (v24_term m c) (ix2 k e)).trans (knowHalf_apply _ _ _ k e)

/-- The first layer's sample weights, transposed, at (d, e). -/
theorem W1a (d e : Fin 128) :
    (Gen.V m c main_v12 : S128x128.Idx → EReal) (ix2 d e) = Spec.mag (a8 m c (ix2 e (Spec.lo d))) :=
  (congrFun (v12_term m c) (ix2 d e)).trans (absLoT_apply _ d e)

/-- The second layer's sample weights, transposed, at (d, e). -/
theorem W2a (d e : Fin 128) :
    (Gen.V m c main_v14 : S128x128.Idx → EReal) (ix2 d e) = Spec.mag (a10 m c (ix2 e (Spec.lo d))) :=
  (congrFun (v14_term m c) (ix2 d e)).trans (absLoT_apply _ d e)

/-- The third layer's weights at (0, e). -/
theorem W3p (e : Fin 128) :
    (Gen.V m c main_v6 : S1x128.Idx → EReal) (ix2 (0 : Fin 1) e) = Spec.mag (a12 m c (ix2 (0 : Fin 1) e)) :=
  (congrFun (v6_term m c) (ix2 (0 : Fin 1) e)).trans rfl

end Cert.KernelIdeal.HostSide

end
-- ==== Proof.Body.lean ====
/-
  The kernel body read at an index.

  For a stretch of 32 knowledge items and the block's 128 samples the body forms the gate
  logistic(∑_e (logistic(B1[i,e] + A1[j,e]) − logistic(B2[i,e] + A2[j,e])) · w[j,e] + b3) of item i and sample j,
  weights it by the mask entry kq[i,j], and sums the 32 items of the stretch by a product with a row of 32 factors.
  Read at sample j a stretch is that sum over its 32 items; the block's result at j is the four stretches added in
  order onto zero, over the block's count entry at j.
-/
import proofs.«426876_j71004399337964_3_alg».proof.Proof.Gen.KernelIdeal.Frame
import proofs.«426876_j71004399337964_3_alg».proof.Proof.LibPlainDot
import proofs.«426876_j71004399337964_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- A [32,128] array of per-item rows laid along a middle axis of 128 samples reads, at (i, j, e), its entry (i, e). -/
theorem itemRows_apply (x : FVec Ideal S32x128 .f32) (i : Fin 32) (j e : Fin 128) :
    broadcastTo S32x128x128 (shapeCast S32x1x128 x shapeCasts_S32x128_S32x1x128) broadcasts_S32x1x128_S32x128x128 (ix3 i j e)
      = x (ix2 i e) := by
  refine (broadcastTo_apply _ _ (ix3 i j e) (ix3 i (0 : Fin 1) e) ?_).trans ?_
  · intro a
    match a with
    | ⟨0, _⟩ => rfl
    | ⟨1, _⟩ => rfl
    | ⟨2, _⟩ => rfl
  · refine shapeCast_apply _ _ _ (ix2 i e) ?_
    rw [Shape.rowMajor_val_two, Shape.rowMajor_val_three]
    show i.val * 128 + e.val = (i.val * 1 + 0) * 128 + e.val
    omega

/-- A [128,128] array of per-sample rows laid along a leading axis of 32 items reads, at (i, j, e), its entry (j, e). -/
theorem sampleRows_apply (x : FVec Ideal S128x128 .f32) (i : Fin 32) (j e : Fin 128) :
    broadcastTo S32x128x128 (shapeCast S1x128x128 x shapeCasts_S128x128_S1x128x128) broadcasts_S1x128x128_S32x128x128 (ix3 i j e)
      = x (ix2 j e) := by
  refine (broadcastTo_apply _ _ (ix3 i j e) (ix3 (0 : Fin 1) j e) ?_).trans ?_
  · intro a
    match a with
    | ⟨0, _⟩ => rfl
    | ⟨1, _⟩ => rfl
    | ⟨2, _⟩ => rfl
  · refine shapeCast_apply _ _ _ (ix2 j e) ?_
    rw [Shape.rowMajor_val_two, Shape.rowMajor_val_three]
    show j.val * 128 + e.val = (0 * 128 + j.val) * 128 + e.val
    omega

/-- The sum over the last axis of a [32,128,128] array, at (i, j): the sum over e of its entries (i, j, e). -/
theorem featureSum_apply (src : FVec Ideal S32x128x128 .f32) (hacc : (0x00000000#32 : BitVec 32) = 0x00000000#32)
    (i : Fin 32) (j : Fin 128) :
    multiReduction .add [2] S32x128 src 0x00000000#32 reduces_S32x128x128_S32x128 (.inl rfl) hacc (ix2 i j)
      = ∑ e : Fin 128, src (ix3 i j e) := by
  refine (Ideal.multiReduction_add_single src 0x00000000#32 reduces_S32x128x128_S32x128 (.inl rfl) hacc (ix2 i j)).trans ?_
  refine Finset.sum_congr rfl fun e _ => congrArg src ?_
  funext a
  apply Fin.ext
  rw [Shape.Reduces.lift_val]
  match a with
  | ⟨0, _⟩ => rfl
  | ⟨1, _⟩ => rfl
  | ⟨2, _⟩ => rfl

/-- One stretch's operations, from the two sample-side products, the per-sample factor, the scalar bias, the row of
    factors, and the stretch's rows of the two knowledge-side tables and of the mask. -/
def stretchOps (v10 v11 v21 : FVec Ideal S128x128 .f32) (v23 : Ideal .f32) (v24 : FVec Ideal S1x32 .f32)
    (b1c b2c kqc : FVec Ideal S32x128 .f32) : FVec Ideal S1x128 .f32 :=
  matmul dot_S1x32_S32x128_S1x128_1_0_0_1_n_n none v24
    (mulf (logistic (addf
      (multiReduction .add [2] S32x128
        (mulf (subf
            (logistic (addf (broadcastTo S32x128x128 (shapeCast S32x1x128 b1c shapeCasts_S32x128_S32x1x128) broadcasts_S32x1x128_S32x128x128)
                            (broadcastTo S32x128x128 (shapeCast S1x128x128 v10 shapeCasts_S128x128_S1x128x128) broadcasts_S1x128x128_S32x128x128)))
            (logistic (addf (broadcastTo S32x128x128 (shapeCast S32x1x128 b2c shapeCasts_S32x128_S32x1x128) broadcasts_S32x1x128_S32x128x128)
                            (broadcastTo S32x128x128 (shapeCast S1x128x128 v11 shapeCasts_S128x128_S1x128x128) broadcasts_S1x128x128_S32x128x128))))
          (broadcastTo S32x128x128 (shapeCast S1x128x128 v21 shapeCasts_S128x128_S1x128x128) broadcasts_S1x128x128_S32x128x128))
        0x00000000#32 reduces_S32x128x128_S32x128 (.inl rfl) rfl)
      (broadcast S32x128 v23))) kqc)
    (constant S1x128 .f32 0x00000000#32)

/-- The gate of item i for sample j, from the stretch's rows and the sample-side values. -/
def gate (b1 b2 : Fin 128 → EReal) (a1 a2 w : Fin 128 → EReal) (b3 : EReal) : EReal :=
  Ideal.logistic ((∑ e : Fin 128, (Ideal.logistic (b1 e + a1 e) - Ideal.logistic (b2 e + a2 e)) * w e) + b3)

/-- A stretch at sample j: the sum over its 32 items of factor · (gate · mask). -/
theorem stretchOps_apply (v10 v11 v21 : FVec Ideal S128x128 .f32) (v23 : Ideal .f32) (v24 : FVec Ideal S1x32 .f32)
    (b1c b2c kqc : FVec Ideal S32x128 .f32) (j : Fin 128) :
    stretchOps v10 v11 v21 v23 v24 b1c b2c kqc (ix2 0 j)
      = ∑ i : Fin 32, v24 (ix2 0 i) * (gate (fun e => b1c (ix2 i e)) (fun e => b2c (ix2 i e)) (fun e => v10 (ix2 j e))
          (fun e => v11 (ix2 j e)) (fun e => v21 (ix2 j e)) v23 * kqc (ix2 i j)) := by
  unfold stretchOps
  refine (PlainDot.matmul_zero_apply 1 32 128 none _ _ 0 j).trans ?_
  refine Finset.sum_congr rfl fun i _ => ?_
  refine congrArg (fun z => v24 (ix2 0 i) * (z * kqc (ix2 i j))) ?_
  show Ideal.logistic (_ + v23) = _
  unfold gate
  refine congrArg (fun z => Ideal.logistic (z + v23)) ?_
  refine (featureSum_apply _ rfl i j).trans ?_
  refine Finset.sum_congr rfl fun e _ => ?_
  show (Ideal.logistic (_ + _) - Ideal.logistic (_ + _)) * _ = _
  rw [itemRows_apply, itemRows_apply, sampleRows_apply, sampleRows_apply, sampleRows_apply]

/-! ## The block's result -/

theorem zeros2 : (![0, 0] : Fin 2 → Nat) = fun _ => 0 := funext fun a => by fin_cases a <;> rfl
theorem zeros1 : (![0] : Fin 1 → Nat) = fun _ => 0 := funext fun a => by fin_cases a; rfl

/-- Rows [o, o + 32) of a [128,128] block, read at (i, e): the block's entry (o + i, e). -/
theorem rows_apply (x : Vec Ideal S128x128 .f32) (o : Nat) (ho : o + 32 ≤ 128)
    (inb : ∀ a, (![o, 0] : Fin 2 → Nat) a + S32x128.size a ≤ S128x128.size a) (i : Fin 32) (e : Fin 128) :
    (View.ld x (Rect.unit (s := S128x128) ![o, 0] S32x128.size inb) : Vec Ideal S32x128 .f32) (ix2 i e)
      = x (ix2 ⟨o + i.val, by omega⟩ e) := by
  show x ((Rect.unit (s := S128x128) ![o, 0] S32x128.size inb).emb (ix2 i e)) = _
  refine congrArg x (funext fun a => Fin.ext ?_)
  rw [Rect.emb_apply]
  match a with
  | ⟨0, _⟩ => show o + 1 * i.val = o + i.val; omega
  | ⟨1, _⟩ => show 0 + 1 * e.val = e.val; omega

/-- The sample-side product of a layer at (j, e): the block's row j against column e of the weight block. -/
theorem prodS_apply (x : Vec Ideal S128x128 .f32) (w : Vec Ideal S128x128 .bf16) (j e : Fin 128) :
    k0_pay2 x w (ix2 j e) = ∑ d : Fin 128, x (ix2 j d) * w (ix2 d e) := by
  unfold k0_pay2
  rw [shapeCast_self, shapeCast_self]
  exact PlainDot.matmul_zero_apply 128 128 128 none _ _ j e

theorem prodE_apply (x : Vec Ideal S128x128 .f32) (w : Vec Ideal S128x128 .bf16) (j e : Fin 128) :
    k0_pay3 x w (ix2 j e) = ∑ d : Fin 128, x (ix2 j d) * w (ix2 d e) := by
  unfold k0_pay3
  rw [shapeCast_self, shapeCast_self]
  exact PlainDot.matmul_zero_apply 128 128 128 none _ _ j e

/-- The per-sample factor at (j, e): logistic(q·k) times the third weight's entry e. -/
theorem factor_apply (q k : Vec Ideal S128x128 .f32) (w3 : Vec Ideal S1x128 .f32) (j e : Fin 128) :
    k0_pay4 q k w3 (ix2 j e) = Ideal.logistic (q (ix2 j e) * k (ix2 j e)) * w3 (ix2 0 e) := by
  unfold k0_pay4
  rw [shapeCast_self, shapeCast_self, shapeCast_self]
  show Ideal.logistic (q (ix2 j e) * k (ix2 j e)) * broadcastTo S128x128 w3 broadcasts_S1x128_S128x128 (ix2 j e) = _
  rw [broadcastTo_1b_ab_apply]

/-- Rows of the four stretches. -/
theorem rows0_apply (x : Vec Ideal S128x128 .f32) (i : Fin 32) (e : Fin 128) :
    (View.ld x r0_3 : Vec Ideal S32x128 .f32) (ix2 i e) = x (ix2 (Cert.Spec.item 0 i) e) :=
  (rows_apply x 0 (by omega) _ i e).trans (congrArg x (congrArg (fun z => ix2 z e) (Fin.ext (by show 0 + i.val = 32 * 0 + i.val; omega))))
theorem rows1_apply (x : Vec Ideal S128x128 .f32) (i : Fin 32) (e : Fin 128) :
    (View.ld x r0_4 : Vec Ideal S32x128 .f32) (ix2 i e) = x (ix2 (Cert.Spec.item 1 i) e) :=
  (rows_apply x 32 (by omega) _ i e).trans (congrArg x (congrArg (fun z => ix2 z e) (Fin.ext (by show 32 + i.val = 32 * 1 + i.val; omega))))
theorem rows2_apply (x : Vec Ideal S128x128 .f32) (i : Fin 32) (e : Fin 128) :
    (View.ld x r0_5 : Vec Ideal S32x128 .f32) (ix2 i e) = x (ix2 (Cert.Spec.item 2 i) e) :=
  (rows_apply x 64 (by omega) _ i e).trans (congrArg x (congrArg (fun z => ix2 z e) (Fin.ext (by show 64 + i.val = 32 * 2 + i.val; omega))))
theorem rows3_apply (x : Vec Ideal S128x128 .f32) (i : Fin 32) (e : Fin 128) :
    (View.ld x r0_6 : Vec Ideal S32x128 .f32) (ix2 i e) = x (ix2 (Cert.Spec.item 3 i) e) :=
  (rows_apply x 96 (by omega) _ i e).trans (congrArg x (congrArg (fun z => ix2 z e) (Fin.ext (by show 96 + i.val = 32 * 3 + i.val; omega))))

/-- The scalar bias is the one entry of its block. -/
theorem bias_apply (x : Vec Ideal S1 .f32) : k0_pay5 x = x (ix1 0) := by
  unfold k0_pay5
  exact congrArg x (funext fun a => by fin_cases a; rfl)

/-- The stretches' rows as the body takes them. -/
theorem rowsC0_apply (x : Vec Ideal S128x128 .f32) (i : Fin 32) (e : Fin 128) :
    (shapeCast S32x128 (View.ld x r0_3 : FVec Ideal S32x128 .f32) shapeCasts_S32x128_S32x128 : FVec Ideal S32x128 .f32) (ix2 i e)
      = x (ix2 (Cert.Spec.item 0 i) e) :=
  (congrFun (shapeCast_self _ _) _).trans (rows0_apply x i e)
theorem rowsC1_apply (x : Vec Ideal S128x128 .f32) (i : Fin 32) (e : Fin 128) :
    (shapeCast S32x128 (View.ld x r0_4 : FVec Ideal S32x128 .f32) shapeCasts_S32x128_S32x128 : FVec Ideal S32x128 .f32) (ix2 i e)
      = x (ix2 (Cert.Spec.item 1 i) e) :=
  (congrFun (shapeCast_self _ _) _).trans (rows1_apply x i e)
theorem rowsC2_apply (x : Vec Ideal S128x128 .f32) (i : Fin 32) (e : Fin 128) :
    (shapeCast S32x128 (View.ld x r0_5 : FVec Ideal S32x128 .f32) shapeCasts_S32x128_S32x128 : FVec Ideal S32x128 .f32) (ix2 i e)
      = x (ix2 (Cert.Spec.item 2 i) e) :=
  (congrFun (shapeCast_self _ _) _).trans (rows2_apply x i e)
theorem rowsC3_apply (x : Vec Ideal S128x128 .f32) (i : Fin 32) (e : Fin 128) :
    (shapeCast S32x128 (View.ld x r0_6 : FVec Ideal S32x128 .f32) shapeCasts_S32x128_S32x128 : FVec Ideal S32x128 .f32) (ix2 i e)
      = x (ix2 (Cert.Spec.item 3 i) e) :=
  (congrFun (shapeCast_self _ _) _).trans (rows3_apply x i e)
/-- The count block as the body takes it. -/
theorem count_apply (x : Vec Ideal S1x128 .f32) (j : Fin 128) :
    (shapeCast S1x128 (x : FVec Ideal S1x128 .f32) shapeCasts_S1x128_S1x128 : FVec Ideal S1x128 .f32) (ix2 0 j) = x (ix2 0 j) :=
  congrFun (shapeCast_self _ _) _

/-- The row of factors is all ones. -/
theorem ones_apply (i : Fin 32) : k0_pay6 (F := Ideal) (ix2 0 i) = 1 :=
  IdealRules.sign_bit.ideal_onePat .f32
/-- The running sum starts from zero. -/
theorem start_apply (j : Fin 128) : k0_pay7 (F := Ideal) (ix2 0 j) = 0 :=
  Ideal.ofBits_zero_f32

/-- The block the body leaves: the four stretches added in order onto zero, over the count block. -/
theorem block_eq (x0 x1 x2 x3 x4 : Vec Ideal S128x128 .f32) (x5 : Vec Ideal S1x128 .f32) (x6 x7 : Vec Ideal S128x128 .f32)
    (x8 x9 : Vec Ideal S128x128 .bf16) (x10 : Vec Ideal S1x128 .f32) (x11 : Vec Ideal S1 .f32) :
    out0_12 x0 x1 x2 x3 x4 x5 x6 x7 x8 x9 x10 x11
      = divf (addf (addf (addf (addf (k0_pay7 (F := Ideal))
          (stretchOps (k0_pay2 (View.ld x0 r0_0) (View.ld x8 r0_0)) (k0_pay3 (View.ld x1 r0_0) (View.ld x9 r0_0)) (k0_pay4 (View.ld x2 r0_0) (View.ld x3 r0_0) (View.ld x10 r0_1)) (k0_pay5 (View.ld x11 r0_2)) (k0_pay6 (F := Ideal)) (shapeCast S32x128 (View.ld x6 r0_3) shapeCasts_S32x128_S32x128) (shapeCast S32x128 (View.ld x7 r0_3) shapeCasts_S32x128_S32x128) (shapeCast S32x128 (View.ld x4 r0_3) shapeCasts_S32x128_S32x128)))
          (stretchOps (k0_pay2 (View.ld x0 r0_0) (View.ld x8 r0_0)) (k0_pay3 (View.ld x1 r0_0) (View.ld x9 r0_0)) (k0_pay4 (View.ld x2 r0_0) (View.ld x3 r0_0) (View.ld x10 r0_1)) (k0_pay5 (View.ld x11 r0_2)) (k0_pay6 (F := Ideal)) (shapeCast S32x128 (View.ld x6 r0_4) shapeCasts_S32x128_S32x128) (shapeCast S32x128 (View.ld x7 r0_4) shapeCasts_S32x128_S32x128) (shapeCast S32x128 (View.ld x4 r0_4) shapeCasts_S32x128_S32x128)))
          (stretchOps (k0_pay2 (View.ld x0 r0_0) (View.ld x8 r0_0)) (k0_pay3 (View.ld x1 r0_0) (View.ld x9 r0_0)) (k0_pay4 (View.ld x2 r0_0) (View.ld x3 r0_0) (View.ld x10 r0_1)) (k0_pay5 (View.ld x11 r0_2)) (k0_pay6 (F := Ideal)) (shapeCast S32x128 (View.ld x6 r0_5) shapeCasts_S32x128_S32x128) (shapeCast S32x128 (View.ld x7 r0_5) shapeCasts_S32x128_S32x128) (shapeCast S32x128 (View.ld x4 r0_5) shapeCasts_S32x128_S32x128)))
          (stretchOps (k0_pay2 (View.ld x0 r0_0) (View.ld x8 r0_0)) (k0_pay3 (View.ld x1 r0_0) (View.ld x9 r0_0)) (k0_pay4 (View.ld x2 r0_0) (View.ld x3 r0_0) (View.ld x10 r0_1)) (k0_pay5 (View.ld x11 r0_2)) (k0_pay6 (F := Ideal)) (shapeCast S32x128 (View.ld x6 r0_6) shapeCasts_S32x128_S32x128) (shapeCast S32x128 (View.ld x7 r0_6) shapeCasts_S32x128_S32x128) (shapeCast S32x128 (View.ld x4 r0_6) shapeCasts_S32x128_S32x128)))
          (shapeCast S1x128 (View.ld x5 r0_1) shapeCasts_S1x128_S1x128) := by
  unfold out0_12
  rw [View.canon_unit_zero zeros2]
  rfl

/-- One stretch of the block at sample j, from the blocks' entries. -/
def stretchAt (x0 x1 x2 x3 x4 : Vec Ideal S128x128 .f32) (x5 : Vec Ideal S1x128 .f32) (x6 x7 : Vec Ideal S128x128 .f32)
    (x8 x9 : Vec Ideal S128x128 .bf16) (x10 : Vec Ideal S1x128 .f32) (x11 : Vec Ideal S1 .f32) (c : Fin 4) (j : Fin 128) : EReal :=
  ∑ i : Fin 32, (1 : EReal) * (gate (fun e => x6 (ix2 (Cert.Spec.item c i) e)) (fun e => x7 (ix2 (Cert.Spec.item c i) e))
    (fun e => ∑ d : Fin 128, x0 (ix2 j d) * x8 (ix2 d e)) (fun e => ∑ d : Fin 128, x1 (ix2 j d) * x9 (ix2 d e))
    (fun e => Ideal.logistic (x2 (ix2 j e) * x3 (ix2 j e)) * x10 (ix2 0 e)) (x11 (ix1 0)) * x4 (ix2 (Cert.Spec.item c i) j))

/-- The block's result at sample j. -/
theorem block_apply (x0 x1 x2 x3 x4 : Vec Ideal S128x128 .f32) (x5 : Vec Ideal S1x128 .f32) (x6 x7 : Vec Ideal S128x128 .f32)
    (x8 x9 : Vec Ideal S128x128 .bf16) (x10 : Vec Ideal S1x128 .f32) (x11 : Vec Ideal S1 .f32) (j : Fin 128) :
    out0_12 x0 x1 x2 x3 x4 x5 x6 x7 x8 x9 x10 x11 (ix2 0 j)
      = Ideal.div ((((0 + stretchAt x0 x1 x2 x3 x4 x5 x6 x7 x8 x9 x10 x11 0 j) + stretchAt x0 x1 x2 x3 x4 x5 x6 x7 x8 x9 x10 x11 1 j)
          + stretchAt x0 x1 x2 x3 x4 x5 x6 x7 x8 x9 x10 x11 2 j) + stretchAt x0 x1 x2 x3 x4 x5 x6 x7 x8 x9 x10 x11 3 j) (x5 (ix2 0 j)) := by
  rw [block_eq]
  simp only [divf_apply, addf_apply, stretchOps_apply, start_apply, ones_apply, bias_apply,
    rowsC0_apply, rowsC1_apply, rowsC2_apply, rowsC3_apply, prodS_apply, prodE_apply, factor_apply, count_apply,
    View.ld_unit_zero (S := S128x128) zeros2, View.ld_unit_zero (S := S1x128) zeros2, View.ld_unit_zero (S := S1) zeros1,
    stretchAt]

/-- The block's result at local sample j is the result at sample b, when at j the blocks hold the operands'
    entries of b: the four gathered rows, the mask's column, the count, the two knowledge-side tables, the two
    sample-side weight blocks, the third weight and the scalar bias. -/
theorem point_eq (T : Cert.Spec.Tabs) (x0 x1 x2 x3 x4 : Vec Ideal S128x128 .f32) (x5 : Vec Ideal S1x128 .f32) (x6 x7 : Vec Ideal S128x128 .f32)
    (x8 x9 : Vec Ideal S128x128 .bf16) (x10 : Vec Ideal S1x128 .f32) (x11 : Vec Ideal S1 .f32) (b : Fin 4096) (j : Fin 128)
    (h0 : ∀ d, x0 (ix2 j d) = T.sv (ix2 b d)) (h1 : ∀ d, x1 (ix2 j d) = T.ev (ix2 b d))
    (h2 : ∀ e, x2 (ix2 j e) = T.sq (ix2 b e)) (h3 : ∀ e, x3 (ix2 j e) = T.ek (ix2 b e))
    (h4 : ∀ k, x4 (ix2 k j) = T.kq (ix2 b k)) (h5 : x5 (ix2 0 j) = 0 + ∑ k : Fin 128, T.kq (ix2 b k))
    (h6 : ∀ k e, x6 (ix2 k e) = Cert.Spec.actK T.kn T.W1 T.b1 k e)
    (h7 : ∀ k e, x7 (ix2 k e) = Cert.Spec.actK T.kn T.W2 T.b2 k e)
    (h8 : ∀ d e, x8 (ix2 d e) = Cert.Spec.mag (T.W1 (ix2 e (Cert.Spec.lo d))))
    (h9 : ∀ d e, x9 (ix2 d e) = Cert.Spec.mag (T.W2 (ix2 e (Cert.Spec.lo d))))
    (h10 : ∀ e, x10 (ix2 0 e) = Cert.Spec.mag (T.W3 (ix2 0 e))) (h11 : x11 (ix1 0) = T.b3 (ix1 0)) :
    out0_12 x0 x1 x2 x3 x4 x5 x6 x7 x8 x9 x10 x11 (ix2 0 j) = Cert.Spec.outK T b := by
  rw [block_apply]
  simp only [stretchAt, gate, h0, h1, h2, h3, h4, h5, h6, h7, h8, h9, h10, h11]
  rfl

end Cert.KernelIdeal.Body

end
-- ==== Proof.KBlocks.lean ====
/-
  The windows' blocks at a grid point, read off the arrays the region finds.

  Grid point t (of 32) takes rows [128·t, 128·t + 128) of the four gathered tables, columns [128·t, 128·t + 128) of the
  transposed mask and of the count row, the whole of the two knowledge-side tables, of the two sample-side weight
  blocks, of the third weight and of the scalar bias, and writes columns [128·t, 128·t + 128) of the result row.
-/
import proofs.«426876_j71004399337964_3_alg».proof.Proof.Gen.KernelIdeal.Frame
import Idealize.ShloMosaic.Lib.Pipeline.Value
import Idealize.ShloMosaic.Lib.ValueIdx

set_option maxRecDepth 16384

noncomputable section

namespace Cert.KernelIdeal.KBlocks

open Idealize.ShloMosaic Idealize.ShloMosaic.ValueIdx Idealize.SL.Sem Cert.KernelIdeal Cert.KernelIdeal.Gen

variable (m : (ℓ : Loc nD τ sig) → Buf (Elt Ideal) ℓ)

/-- The printed index maps, decided over the 32 grid points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 1) = 0
    ∧ win0_12.index t (0 : Fin 2) = 0 ∧ win0_12.index t (1 : Fin 2) = t.val :=
  (by decide +kernel : ∀ t : Fin grid0.N, _)

/-- Sample j of point t. -/
def samp (t : Fin cfg0.N) (j : Fin 128) : Fin 4096 := ⟨128 * t.val + j.val, by have := t.isLt; have : cfg0.N = 32 := rfl; omega⟩

/-- A row block of a gathered table at (j, d): the table's row of sample j of the point. -/
theorem rowBlk0 (c : Dev nD) (t : Fin cfg0.N) (j d : Fin 128) :
    iblk m c 0 t (ix2 j d) = (V m c main_v2 : S4096x128.Idx → Elt Ideal .f32) (ix2 (samp t j) d) := by
  have h := idx_facts t
  show V m c main_v2 (((cfg0.win 0).blk t).view.emb (ix2 j d)) = _
  refine congrArg (V m c main_v2) (funext fun a => Fin.ext ?_)
  match a with
  | ⟨0, _⟩ => show win0_0.index t (0 : Fin 2) * 128 + 1 * j.val = 128 * t.val + j.val; omega
  | ⟨1, _⟩ => show win0_0.index t (1 : Fin 2) * 128 + 1 * d.val = d.val; omega
theorem rowBlk1 (c : Dev nD) (t : Fin cfg0.N) (j d : Fin 128) :
    iblk m c 1 t (ix2 j d) = (V m c main_v3 : S4096x128.Idx → Elt Ideal .f32) (ix2 (samp t j) d) := by
  have h := idx_facts t
  show V m c main_v3 (((cfg0.win 1).blk t).view.emb (ix2 j d)) = _
  refine congrArg (V m c main_v3) (funext fun a => Fin.ext ?_)
  match a with
  | ⟨0, _⟩ => show win0_1.index t (0 : Fin 2) * 128 + 1 * j.val = 128 * t.val + j.val; omega
  | ⟨1, _⟩ => show win0_1.index t (1 : Fin 2) * 128 + 1 * d.val = d.val; omega
theorem rowBlk2 (c : Dev nD) (t : Fin cfg0.N) (j d : Fin 128) :
    iblk m c 2 t (ix2 j d) = (V m c main_v0 : S4096x128.Idx → Elt Ideal .f32) (ix2 (samp t j) d) := by
  have h := idx_facts t
  show V m c main_v0 (((cfg0.win 2).blk t).view.emb (ix2 j d)) = _
  refine congrArg (V m c main_v0) (funext fun a => Fin.ext ?_)
  match a with
  | ⟨0, _⟩ => show win0_2.index t (0 : Fin 2) * 128 + 1 * j.val = 128 * t.val + j.val; omega
  | ⟨1, _⟩ => show win0_2.index t (1 : Fin 2) * 128 + 1 * d.val = d.val; omega
theorem rowBlk3 (c : Dev nD) (t : Fin cfg0.N) (j d : Fin 128) :
    iblk m c 3 t (ix2 j d) = (V m c main_v1 : S4096x128.Idx → Elt Ideal .f32) (ix2 (samp t j) d) := by
  have h := idx_facts t
  show V m c main_v1 (((cfg0.win 3).blk t).view.emb (ix2 j d)) = _
  refine congrArg (V m c main_v1) (funext fun a => Fin.ext ?_)
  match a with
  | ⟨0, _⟩ => show win0_3.index t (0 : Fin 2) * 128 + 1 * j.val = 128 * t.val + j.val; omega
  | ⟨1, _⟩ => show win0_3.index t (1 : Fin 2) * 128 + 1 * d.val = d.val; omega

/-- The transposed mask's block at (k, j): item k, sample j of the point. -/
theorem maskBlk (c : Dev nD) (t : Fin cfg0.N) (k j : Fin 128) :
    iblk m c 4 t (ix2 k j) = (V m c main_v25 : S128x4096.Idx → Elt Ideal .f32) (ix2 k (samp t j)) := by
  have h := idx_facts t
  show V m c main_v25 (((cfg0.win 4).blk t).view.emb (ix2 k j)) = _
  refine congrArg (V m c main_v25) (funext fun a => Fin.ext ?_)
  match a with
  | ⟨0, _⟩ => show win0_4.index t (0 : Fin 2) * 128 + 1 * k.val = k.val; omega
  | ⟨1, _⟩ => show win0_4.index t (1 : Fin 2) * 128 + 1 * j.val = 128 * t.val + j.val; omega

/-- The count row's block at j: sample j of the point. -/
theorem countBlk (c : Dev nD) (t : Fin cfg0.N) (j : Fin 128) :
    iblk m c 5 t (ix2 0 j) = (V m c main_v27 : S1x4096.Idx → Elt Ideal .f32) (ix2 0 (samp t j)) := by
  have h := idx_facts t
  show V m c main_v27 (((cfg0.win 5).blk t).view.emb (ix2 0 j)) = _
  refine congrArg (V m c main_v27) (funext fun a => Fin.ext ?_)
  match a with
  | ⟨0, _⟩ => show win0_5.index t (0 : Fin 2) * 1 + 1 * 0 = 0; omega
  | ⟨1, _⟩ => show win0_5.index t (1 : Fin 2) * 128 + 1 * j.val = 128 * t.val + j.val; omega

/-- The blocks taken whole. -/
theorem fullBlk6 (c : Dev nD) (t : Fin cfg0.N) (k e : Fin 128) :
    iblk m c 6 t (ix2 k e) = (V m c main_v19 : S128x128.Idx → Elt Ideal .f32) (ix2 k e) := by
  have h := idx_facts t
  show V m c main_v19 (((cfg0.win 6).blk t).view.emb (ix2 k e)) = _
  refine congrArg (V m c main_v19) (funext fun a => Fin.ext ?_)
  match a with
  | ⟨0, _⟩ => show win0_6.index t (0 : Fin 2) * 128 + 1 * k.val = k.val; omega
  | ⟨1, _⟩ => show win0_6.index t (1 : Fin 2) * 128 + 1 * e.val = e.val; omega
theorem fullBlk7 (c : Dev nD) (t : Fin cfg0.N) (k e : Fin 128) :
    iblk m c 7 t (ix2 k e) = (V m c main_v24 : S128x128.Idx → Elt Ideal .f32) (ix2 k e) := by
  have h := idx_facts t
  show V m c main_v24 (((cfg0.win 7).blk t).view.emb (ix2 k e)) = _
  refine congrArg (V m c main_v24) (funext fun a => Fin.ext ?_)
  match a with
  | ⟨0, _⟩ => show win0_7.index t (0 : Fin 2) * 128 + 1 * k.val = k.val; omega
  | ⟨1, _⟩ => show win0_7.index t (1 : Fin 2) * 128 + 1 * e.val = e.val; omega
theorem fullBlk8 (c : Dev nD) (t : Fin cfg0.N) (k e : Fin 128) :
    iblk m c 8 t (ix2 k e) = (V m c main_v12 : S128x128.Idx → Elt Ideal .bf16) (ix2 k e) := by
  have h := idx_facts t
  show V m c main_v12 (((cfg0.win 8).blk t).view.emb (ix2 k e)) = _
  refine congrArg (V m c main_v12) (funext fun a => Fin.ext ?_)
  match a with
  | ⟨0, _⟩ => show win0_8.index t (0 : Fin 2) * 128 + 1 * k.val = k.val; omega
  | ⟨1, _⟩ => show win0_8.index t (1 : Fin 2) * 128 + 1 * e.val = e.val; omega
theorem fullBlk9 (c : Dev nD) (t : Fin cfg0.N) (k e : Fin 128) :
    iblk m c 9 t (ix2 k e) = (V m c main_v14 : S128x128.Idx → Elt Ideal .bf16) (ix2 k e) := by
  have h := idx_facts t
  show V m c main_v14 (((cfg0.win 9).blk t).view.emb (ix2 k e)) = _
  refine congrArg (V m c main_v14) (funext fun a => Fin.ext ?_)
  match a with
  | ⟨0, _⟩ => show win0_9.index t (0 : Fin 2) * 128 + 1 * k.val = k.val; omega
  | ⟨1, _⟩ => show win0_9.index t (1 : Fin 2) * 128 + 1 * e.val = e.val; omega

theorem weightBlk (c : Dev nD) (t : Fin cfg0.N) (e : Fin 128) :
    iblk m c 10 t (ix2 0 e) = (V m c main_v6 : S1x128.Idx → Elt Ideal .f32) (ix2 0 e) := by
  have h := idx_facts t
  show V m c main_v6 (((cfg0.win 10).blk t).view.emb (ix2 0 e)) = _
  refine congrArg (V m c main_v6) (funext fun a => Fin.ext ?_)
  match a with
  | ⟨0, _⟩ => show win0_10.index t (0 : Fin 2) * 1 + 1 * 0 = 0; omega
  | ⟨1, _⟩ => show win0_10.index t (1 : Fin 2) * 128 + 1 * e.val = e.val; omega

theorem biasBlk (c : Dev nD) (t : Fin cfg0.N) :
    iblk m c 11 t (ix1 0) = (V m c main_arg13 : S1.Idx → Elt Ideal .f32) (ix1 0) := by
  have h := idx_facts t
  show V m c main_arg13 (((cfg0.win 11).blk t).view.emb (ix1 0)) = _
  refine congrArg (V m c main_arg13) (funext fun a => Fin.ext ?_)
  match a with
  | ⟨0, _⟩ => show win0_11.index t (0 : Fin 1) * 1 + 1 * 0 = 0; omega

end Cert.KernelIdeal.KBlocks

end
-- ==== Proof.KSide.lean ====
/-
  The kernel program's result array, as one function of the operands.

  Every grid point writes back columns [128·t, 128·t + 128) of the result row, and what it writes at local sample j is
  the result at sample 128·t + j; the 32 points' blocks cover the row, so after the run the row holds the result at
  every sample, and the program's last operation reshapes the row into the result vector.
-/
import proofs.«426876_j71004399337964_3_alg».proof.Proof.Gen.KernelIdeal.Frame
import proofs.«426876_j71004399337964_3_alg».proof.Proof.Body
import proofs.«426876_j71004399337964_3_alg».proof.Proof.KBlocks
import proofs.«426876_j71004399337964_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.KSide

open Idealize.ShloMosaic Idealize.ShloMosaic.ValueIdx Idealize.SL.Sem Cert.KernelIdeal Cert.KernelIdeal.Gen
  Cert.KernelIdeal.KBlocks

variable (m : (ℓ : Loc nD τ sig) → Buf (Elt Ideal) ℓ) (ρ : Dev nD → PrngReg)

/-- The arrays the region stages hold the operands: the gathered rows, the transposed mask, the mask's row sums, the
    knowledge halves of the two layers, the sample halves' weights, the third weight's magnitude, the scalar bias. -/
structure Entry (c : Dev nD) (T : Cert.Spec.Tabs) : Prop where
  sv : (V m c main_v2 : S4096x128.Idx → Elt Ideal .f32) = T.sv
  ev : (V m c main_v3 : S4096x128.Idx → Elt Ideal .f32) = T.ev
  sq : (V m c main_v0 : S4096x128.Idx → Elt Ideal .f32) = T.sq
  ek : (V m c main_v1 : S4096x128.Idx → Elt Ideal .f32) = T.ek
  kqT : ∀ (p : Fin 128) (q : Fin 4096), (V m c main_v25 : S128x4096.Idx → Elt Ideal .f32) (ix2 p q) = T.kq (ix2 q p)
  count : ∀ q : Fin 4096, (V m c main_v27 : S1x4096.Idx → Elt Ideal .f32) (ix2 0 q) = 0 + ∑ k : Fin 128, T.kq (ix2 q k)
  B1 : ∀ k e : Fin 128, (V m c main_v19 : S128x128.Idx → Elt Ideal .f32) (ix2 k e) = Cert.Spec.actK T.kn T.W1 T.b1 k e
  B2 : ∀ k e : Fin 128, (V m c main_v24 : S128x128.Idx → Elt Ideal .f32) (ix2 k e) = Cert.Spec.actK T.kn T.W2 T.b2 k e
  W1a : ∀ d e : Fin 128, (V m c main_v12 : S128x128.Idx → Elt Ideal .bf16) (ix2 d e) = Cert.Spec.mag (T.W1 (ix2 e (Cert.Spec.lo d)))
  W2a : ∀ d e : Fin 128, (V m c main_v14 : S128x128.Idx → Elt Ideal .bf16) (ix2 d e) = Cert.Spec.mag (T.W2 (ix2 e (Cert.Spec.lo d)))
  W3p : ∀ e : Fin 128, (V m c main_v6 : S1x128.Idx → Elt Ideal .f32) (ix2 0 e) = Cert.Spec.mag (T.W3 (ix2 0 e))
  b3 : (V m c main_arg13 : S1.Idx → Elt Ideal .f32) (ix1 0) = T.b3 (ix1 0)

/-- The result row: the result at each sample. -/
abbrev row (T : Cert.Spec.Tabs) : S1x4096.Idx → Elt Ideal .f32 := fun i => Cert.Spec.outK T (i 1)

/-- WHAT POINT t WRITES BACK is block t of the result row. -/
theorem flushed_eq (c : Dev nD) (T : Cert.Spec.Tabs) (E : Entry m c T) (t : Fin cfg0.N) :
    (dats m 0 c).flushed 12 t = ((cfg0.win 12).blk t).view.read (Elt Ideal) (row T) := by
  show (cfg0.win 12).cut (grid0.coords t) ((dats m 0 c).after 12 t) = _
  rw [after0_12]
  funext y
  obtain ⟨p, j, rfl⟩ : ∃ (p : Fin 1) (j : Fin 128), y = ix2 p j := ⟨y 0, y 1, eq_ix2 y⟩
  obtain rfl : p = 0 := Subsingleton.elim _ _
  have hb : (((cfg0.win 12).blk t).view.emb (ix2 0 j)) (1 : Fin 2) = samp t j := by
    apply Fin.ext
    have h := idx_facts t
    show win0_12.index t (1 : Fin 2) * 128 + 1 * j.val = 128 * t.val + j.val
    omega
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 0 j)
    = Cert.Spec.outK T ((((cfg0.win 12).blk t).view.emb (ix2 0 j)) (1 : Fin 2))
  rw [hb]
  exact Body.point_eq T (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (samp t j) j
    (fun d => (rowBlk0 m c t j d).trans (congrFun E.sv _))
    (fun d => (rowBlk1 m c t j d).trans (congrFun E.ev _))
    (fun e => (rowBlk2 m c t j e).trans (congrFun E.sq _))
    (fun e => (rowBlk3 m c t j e).trans (congrFun E.ek _))
    (fun k => (maskBlk m c t k j).trans (E.kqT k (samp t j)))
    ((countBlk m c t j).trans (E.count (samp t j)))
    (fun k e => (fullBlk6 m c t k e).trans (E.B1 k e))
    (fun k e => (fullBlk7 m c t k e).trans (E.B2 k e))
    (fun d e => (fullBlk8 m c t d e).trans (E.W1a d e))
    (fun d e => (fullBlk9 m c t d e).trans (E.W2a d e))
    (fun e => (weightBlk m c t e).trans (E.W3p e))
    ((biasBlk m c t).trans E.b3)

/-- An index of the row is in point t's block iff each coordinate is in the block's range on its axis. -/
theorem mem_blk (t : Fin cfg0.N) (i : S1x4096.Idx) :
    i ∈ ((cfg0.win 12).blk t).view.set ↔ ∀ a : Fin 2, win0_12.index t a * S1x128.size a ≤ (i a).val
      ∧ (i a).val < win0_12.index t a * S1x128.size a + S1x128.size a := by
  show i ∈ ((View.whole main_v28).slice (win0_12.rect t)).set ↔ _
  rw [View.set_slice_whole, Rect.mem_set_unit]
  exact Iff.rfl

/-- Every index of the row is in some point's block: sample b in point b / 128's. -/
theorem cover (i : S1x4096.Idx) :
    ∃ t : Fin cfg0.N, (cfg0.win 12).flush t = true ∧ i ∈ ((cfg0.win 12).blk t).view.set := by
  have hi0 : (i 0).val < 1 := (i 0).isLt
  have hi1 : (i 1).val < 4096 := (i 1).isLt
  have hN : cfg0.N = 32 := rfl
  have hN' : grid0.N = 32 := rfl
  refine ⟨⟨(i 1).val / 128, by omega⟩, flush0_12 _, ?_⟩
  rw [mem_blk]
  have h := idx_facts ⟨(i 1).val / 128, by omega⟩
  intro a
  match a with
  | ⟨0, _⟩ =>
    show win0_12.index ⟨(i 1).val / 128, _⟩ (0 : Fin 2) * 1 ≤ (i 0).val
      ∧ (i 0).val < win0_12.index ⟨(i 1).val / 128, _⟩ (0 : Fin 2) * 1 + 1
    omega
  | ⟨1, _⟩ =>
    show win0_12.index ⟨(i 1).val / 128, _⟩ (1 : Fin 2) * 128 ≤ (i 1).val
      ∧ (i 1).val < win0_12.index ⟨(i 1).val / 128, _⟩ (1 : Fin 2) * 128 + 128
    have e : win0_12.index ⟨(i 1).val / 128, by omega⟩ (1 : Fin 2) = (i 1).val / 128 := h.2.2.2.2.2.2.2.2.2.2.2.2.2.2.2.2.2.2.2.2.2.2.2.2
    omega

/-- THE ROW after the run. -/
theorem final (c : Dev nD) (T : Cert.Spec.Tabs) (E : Entry m c T) : (dats m 0 c).arrAt 12 cfg0.N = row T :=
  (dats m 0 c).arrAt_eq_of_cover 12 (row T) (fun t _ => flushed_eq m c T E t) cover

/-- The program's last operation reshapes the row into the result vector. -/
theorem tail_eq (c : Dev nD) (T : Cert.Spec.Tabs) (E : Entry m c T) :
    Pipeline.afterTail₀ cfgs (dats m) 0 (V0 m) [hostOps1] c main_v29
      = (fun i : S4096.Idx => Cert.Spec.outK T (i 0) : S4096.Idx → Elt Ideal .f32) := by
  unfold Pipeline.afterTail₀
  show StableHlo.after hostOps1 _ (Proc.devRef .tc main_v29) = _
  after_results
  funext i
  obtain ⟨b, rfl⟩ : ∃ b : Fin 4096, i = ix1 b := ⟨i 0, eq_ix1 i⟩
  have hA : Pipeline.withArrays (cfgs 0).spec c (V0 m c) (fun w => (dats m 0 c).arrAt w (cfgs 0).N)
      (Proc.devRef .tc main_v28) = row T :=
    (Pipeline.withArrays_arr spec0 launch0.win.arr_inj c _ _ 12).trans (final m c T E)
  show shapeCast S4096 (Pipeline.withArrays (cfgs 0).spec c (V0 m c) (fun w => (dats m 0 c).arrAt w (cfgs 0).N)
      (Proc.devRef .tc main_v28)) shapeCasts_S1x4096_S4096 (ix1 b) = Cert.Spec.outK T b
  rw [hA]
  exact shapeCast_1a_a_apply (row T) _ b

/-- THE RUN: every weakly fair execution of the kernel program ends with the result vector at the result of every
    sample and the argument arrays unchanged. -/
theorem run (T : Dev nD → Cert.Spec.Tabs) (E : ∀ c, Entry m c (T c)) :
    θ_run defs (onTc (τ := τ) (main (F := Ideal))) ⟨m, fun _ => 0, ρ⟩ fun r => ∀ c : Dev nD,
      r.2.mem ((c.tc : Thread nD τ).loc main_v29) = (fun i : S4096.Idx => Cert.Spec.outK (T c) (i 0) : S4096.Idx → Elt Ideal .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).2 main_v29 (Pipeline.mem_restRefs_of main_v29 (by decide) (by decide))).trans
        (tail_eq m c (T c) (E c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).1 11).trans (((dats m 0 c).arrAt_in 11 rfl _).trans ((A_eq m c 11).trans (V_main_arg13 m c)))⟩)
    (run_main m ρ)

end Cert.KernelIdeal.KSide

end
-- ==== Proof.lean ====
/-
  The kernel and its reference compute one function of their arguments.

  Both programs gather four embedding tables by the two id vectors, run two positive-weight linear layers over the
  concatenation of a sample row and a knowledge row, gate their difference by a third layer, and average the gates
  with the mask kq.  The reference sums all 256 input columns of a layer at once and takes |w| as 2·max(−w, 0) + w;
  the kernel forms the sample half and the knowledge half of each layer apart, takes |w| as max(w, −w), folds the
  third layer's weight into the per-sample factor, and sums the 128 gates in four stretches of 32 by a product with a
  row of ones.  Where the weights are finite the two magnitudes agree, a sum over 256 columns is the sum of its two
  halves, and the rest is commutativity and associativity of + and · on the extended reals, which hold at ±∞ too.
  Where every id names a row of its table (0 ≤ id < 20000) the two gathers agree: one program fills a row with a
  not-a-number pattern when its id is out of range and the other clamps the id, so the precondition asks for ids in
  range; it also gives the weights' finiteness.
  Each frame is the generated one (the reference's: its generated run with the result dropped); the ideal pass
  applied no rewrite, so there is nothing to preserve.
-/
import proofs.«426876_j71004399337964_3_alg».proof.Defs
import proofs.«426876_j71004399337964_3_alg».proof.Proof.Gen.Kernel
import proofs.«426876_j71004399337964_3_alg».proof.Proof.Gen.Kernel.Skeleton
import proofs.«426876_j71004399337964_3_alg».proof.Proof.Gen.Kernel.Launch
import proofs.«426876_j71004399337964_3_alg».proof.Proof.Gen.Kernel.Points
import proofs.«426876_j71004399337964_3_alg».proof.Proof.Gen.Kernel.Frame
import proofs.«426876_j71004399337964_3_alg».proof.Proof.Gen.KernelIdeal
import proofs.«426876_j71004399337964_3_alg».proof.Proof.Gen.KernelIdeal.Skeleton
import proofs.«426876_j71004399337964_3_alg».proof.Proof.Gen.KernelIdeal.Launch
import proofs.«426876_j71004399337964_3_alg».proof.Proof.Gen.KernelIdeal.Points
import proofs.«426876_j71004399337964_3_alg».proof.Proof.Gen.KernelIdeal.Frame
import proofs.«426876_j71004399337964_3_alg».proof.Proof.Gen.ReferenceIdeal
import proofs.«426876_j71004399337964_3_alg».proof.Proof.Gen.Pre_finite_inputs
import proofs.«426876_j71004399337964_3_alg».proof.Proof.Gen.ReferenceIdeal.Run
import proofs.«426876_j71004399337964_3_alg».proof.Proof.Gen.ReferenceIdeal.Read
import proofs.«426876_j71004399337964_3_alg».proof.Proof.Spec
import proofs.«426876_j71004399337964_3_alg».proof.Proof.SpecLaw
import proofs.«426876_j71004399337964_3_alg».proof.Proof.PreSide
import proofs.«426876_j71004399337964_3_alg».proof.Proof.RefSide
import proofs.«426876_j71004399337964_3_alg».proof.Proof.HostSide
import proofs.«426876_j71004399337964_3_alg».proof.Proof.KSide
import Idealize.ShloMosaic.Adequacy
import Idealize.ShloMosaic.Init

set_option maxRecDepth 16384

noncomputable section

namespace Cert.Proof

open Idealize.ShloMosaic Idealize.ShloMosaic.ValueIdx Idealize.SL.Sem

section Kernel

open Cert.KernelIdeal Cert.KernelIdeal.Gen Cert.KernelIdeal.HostSide

variable (m : (ℓ : Loc Cert.KernelIdeal.nD Cert.KernelIdeal.τ Cert.KernelIdeal.sig) → Buf (Elt Ideal) ℓ)

/-- The operands from this memory's argument arrays on core c. -/
def operands (c : Dev Cert.KernelIdeal.nD) : Cert.Spec.Tabs :=
  Cert.Spec.tabs (a0 m c) (a1 m c) (a2 m c) (a3 m c) (a4 m c) (a5 m c) (a6 m c) (a7 m c) (a8 m c) (a9 m c) (a10 m c)
    (a11 m c) (a12 m c) (a13 m c)

/-- With the ids in range, the arrays the region stages hold the operands. -/
theorem entry (c : Dev Cert.KernelIdeal.nD) (h0 : Cert.Spec.InRange (a0 m c)) (h1 : Cert.Spec.InRange (a1 m c)) :
    Cert.KernelIdeal.KSide.Entry m c (operands m c) where
  sv := stu_v m c h0
  ev := exer_v m c h1
  sq := stu_q m c h0
  ek := exer_k m c h1
  kqT := kqT m c
  count := count m c
  B1 := B1 m c
  B2 := B2 m c
  W1a := W1a m c
  W2a := W2a m c
  W3p := W3p m c
  b3 := congrFun (V_main_arg13 m c) _

end Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, under the precondition, both programs end with the result vector at
    one function of the arguments: the kernel's arrangement of it and the reference's are equal where the weights are
    finite. -/
theorem algebraic : Cert.algebraic_KernelIdeal_ReferenceIdeal := by
  intro m ρ m' ρ' hpre hagree
  have P := fun c => Cert.PreSide.of_pre _ _ _ _ _ _ _ _ _ _ _ _ _ _ (hpre c)
  refine ⟨fun c => (fun i => Cert.Spec.outK (operands m c) (i 0)),
    Cert.KernelIdeal.KSide.run m ρ (operands m) (fun c => entry m c (P c).1 (P c).2.1), ?_⟩
  refine (θ_run Cert.ReferenceIdeal.defs _ _).mono (fun r h c => ⟨(h c).1.trans ?_, (h c).2⟩)
    (Cert.ReferenceIdeal.Value.run (F := Ideal) m' ρ')
  obtain ⟨g0, g1, g2, g3, g4, g5, g6, g7, g8, g9, g10, g11, g12, g13⟩ := hagree c
  rw [Cert.ReferenceIdeal.Read.val_main_v98_eq, g0, g1, g2, g3, g4, g5, g6, g7, g8, g9, g10, g11, g12, g13,
    Cert.RefSide.result_eq _ _ _ _ _ _ _ _ _ _ _ _ _ _ (P c).1 (P c).2.1]
  funext i
  exact (Cert.Spec.outK_eq_outR _ (P c).2.2.1 (P c).2.2.2.1 (P c).2.2.2.2 (i 0)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
